-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40x64 : Shape := ⟨3, ![2048, 40, 64]⟩
abbrev S64x64 : Shape := ⟨2, ![64, 64]⟩
abbrev S_ : Shape := ⟨0, ![]⟩

class Facts : Prop where
  bcast_S_S2048x40x64 : S_.BroadcastsInDim S2048x40x64 (![] : Fin 0 → Fin S2048x40x64.rank)
  reducesTo_S2048x40x64_S_d0_1_2 : S2048x40x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S2048x40x64 .f32) (main_arg1 : FVec F S64x64 .f32) : IVec S_ 1 :=
  let main_v0 : FVec F S2048x40x64 .f32 := Host.absf main_arg0
  let main_cst : FVec F S_ .f32 := constant S_ .f32 0x7F800000#32
  let main_v1 : FVec F S2048x40x64 .f32 := broadcastInDim S2048x40x64 ![] bcast_S_S2048x40x64 main_cst
  let main_v2 : IVec S2048x40x64 1 := cmpf .olt main_v0 main_v1
  let main_c : IVec S_ 1 := constantI S_ 1 1#1
  let main_v3 : IVec S_ 1 := (fun x v => Host.reduce IntOp.andi x v reducesTo_S2048x40x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S2048x40x64 : Shape := ⟨3, ![2048, 40, 64]⟩
abbrev S64x64 : Shape := ⟨2, ![64, 64]⟩
abbrev S2048x49920 : Shape := ⟨2, ![2048, 49920]⟩
abbrev S32x40x64 : Shape := ⟨3, ![32, 40, 64]⟩
abbrev S32x49920 : Shape := ⟨2, ![32, 49920]⟩
abbrev S1280x64 : Shape := ⟨2, ![1280, 64]⟩
abbrev S32x1x64 : Shape := ⟨3, ![32, 1, 64]⟩
abbrev S32x64 : Shape := ⟨2, ![32, 64]⟩
abbrev S32x39x64 : Shape := ⟨3, ![32, 39, 64]⟩
abbrev S32x2496 : Shape := ⟨2, ![32, 2496]⟩
abbrev S32x38x64 : Shape := ⟨3, ![32, 38, 64]⟩
abbrev S32x2432 : Shape := ⟨2, ![32, 2432]⟩
abbrev S32x37x64 : Shape := ⟨3, ![32, 37, 64]⟩
abbrev S32x2368 : Shape := ⟨2, ![32, 2368]⟩
abbrev S32x36x64 : Shape := ⟨3, ![32, 36, 64]⟩
abbrev S32x2304 : Shape := ⟨2, ![32, 2304]⟩
abbrev S32x35x64 : Shape := ⟨3, ![32, 35, 64]⟩
abbrev S32x2240 : Shape := ⟨2, ![32, 2240]⟩
abbrev S32x34x64 : Shape := ⟨3, ![32, 34, 64]⟩
abbrev S32x2176 : Shape := ⟨2, ![32, 2176]⟩
abbrev S32x33x64 : Shape := ⟨3, ![32, 33, 64]⟩
abbrev S32x2112 : Shape := ⟨2, ![32, 2112]⟩
abbrev S32x32x64 : Shape := ⟨3, ![32, 32, 64]⟩
abbrev S32x2048 : Shape := ⟨2, ![32, 2048]⟩
abbrev S32x31x64 : Shape := ⟨3, ![32, 31, 64]⟩
abbrev S32x1984 : Shape := ⟨2, ![32, 1984]⟩
abbrev S32x30x64 : Shape := ⟨3, ![32, 30, 64]⟩
abbrev S32x1920 : Shape := ⟨2, ![32, 1920]⟩
abbrev S32x29x64 : Shape := ⟨3, ![32, 29, 64]⟩
abbrev S32x1856 : Shape := ⟨2, ![32, 1856]⟩
abbrev S32x28x64 : Shape := ⟨3, ![32, 28, 64]⟩
abbrev S32x1792 : Shape := ⟨2, ![32, 1792]⟩
abbrev S32x27x64 : Shape := ⟨3, ![32, 27, 64]⟩
abbrev S32x1728 : Shape := ⟨2, ![32, 1728]⟩
abbrev S32x26x64 : Shape := ⟨3, ![32, 26, 64]⟩
abbrev S32x1664 : Shape := ⟨2, ![32, 1664]⟩
abbrev S32x25x64 : Shape := ⟨3, ![32, 25, 64]⟩
abbrev S32x1600 : Shape := ⟨2, ![32, 1600]⟩
abbrev S32x24x64 : Shape := ⟨3, ![32, 24, 64]⟩
abbrev S32x1536 : Shape := ⟨2, ![32, 1536]⟩
abbrev S32x23x64 : Shape := ⟨3, ![32, 23, 64]⟩
abbrev S32x1472 : Shape := ⟨2, ![32, 1472]⟩
abbrev S32x22x64 : Shape := ⟨3, ![32, 22, 64]⟩
abbrev S32x1408 : Shape := ⟨2, ![32, 1408]⟩
abbrev S32x21x64 : Shape := ⟨3, ![32, 21, 64]⟩
abbrev S32x1344 : Shape := ⟨2, ![32, 1344]⟩
abbrev S32x20x64 : Shape := ⟨3, ![32, 20, 64]⟩
abbrev S32x1280 : Shape := ⟨2, ![32, 1280]⟩
abbrev S32x19x64 : Shape := ⟨3, ![32, 19, 64]⟩
abbrev S32x1216 : Shape := ⟨2, ![32, 1216]⟩
abbrev S32x18x64 : Shape := ⟨3, ![32, 18, 64]⟩
abbrev S32x1152 : Shape := ⟨2, ![32, 1152]⟩
abbrev S32x17x64 : Shape := ⟨3, ![32, 17, 64]⟩
abbrev S32x1088 : Shape := ⟨2, ![32, 1088]⟩
abbrev S32x16x64 : Shape := ⟨3, ![32, 16, 64]⟩
abbrev S32x1024 : Shape := ⟨2, ![32, 1024]⟩
abbrev S32x15x64 : Shape := ⟨3, ![32, 15, 64]⟩
abbrev S32x960 : Shape := ⟨2, ![32, 960]⟩
abbrev S32x14x64 : Shape := ⟨3, ![32, 14, 64]⟩
abbrev S32x896 : Shape := ⟨2, ![32, 896]⟩
abbrev S32x13x64 : Shape := ⟨3, ![32, 13, 64]⟩
abbrev S32x832 : Shape := ⟨2, ![32, 832]⟩
abbrev S32x12x64 : Shape := ⟨3, ![32, 12, 64]⟩
abbrev S32x768 : Shape := ⟨2, ![32, 768]⟩
abbrev S32x11x64 : Shape := ⟨3, ![32, 11, 64]⟩
abbrev S32x704 : Shape := ⟨2, ![32, 704]⟩
abbrev S32x10x64 : Shape := ⟨3, ![32, 10, 64]⟩
abbrev S32x640 : Shape := ⟨2, ![32, 640]⟩
abbrev S32x9x64 : Shape := ⟨3, ![32, 9, 64]⟩
abbrev S32x576 : Shape := ⟨2, ![32, 576]⟩
abbrev S32x8x64 : Shape := ⟨3, ![32, 8, 64]⟩
abbrev S32x512 : Shape := ⟨2, ![32, 512]⟩
abbrev S32x7x64 : Shape := ⟨3, ![32, 7, 64]⟩
abbrev S32x448 : Shape := ⟨2, ![32, 448]⟩
abbrev S32x6x64 : Shape := ⟨3, ![32, 6, 64]⟩
abbrev S32x384 : Shape := ⟨2, ![32, 384]⟩
abbrev S32x5x64 : Shape := ⟨3, ![32, 5, 64]⟩
abbrev S32x320 : Shape := ⟨2, ![32, 320]⟩
abbrev S32x4x64 : Shape := ⟨3, ![32, 4, 64]⟩
abbrev S32x256 : Shape := ⟨2, ![32, 256]⟩
abbrev S32x3x64 : Shape := ⟨3, ![32, 3, 64]⟩
abbrev S32x192 : Shape := ⟨2, ![32, 192]⟩
abbrev S32x2x64 : Shape := ⟨3, ![32, 2, 64]⟩
abbrev S32x128 : Shape := ⟨2, ![32, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x40x64, .f32⟩
  | .hbm, ⟨1, _⟩ => ⟨S64x64, .f32⟩
  | .hbm, ⟨2, _⟩ => ⟨S2048x49920, .f32⟩
  | .local _ .vmem, ⟨0, _⟩ => ⟨S32x40x64, .f32⟩
  | .local _ .vmem, ⟨1, _⟩ => ⟨S32x40x64, .f32⟩
  | .local _ .vmem, ⟨2, _⟩ => ⟨S64x64, .f32⟩
  | .local _ .vmem, ⟨3, _⟩ => ⟨S32x49920, .f32⟩
  | .local _ .vmem, ⟨4, _⟩ => ⟨S32x49920, .f32⟩
  | _, _ => ⟨S2048x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x49920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x40x64_S32x40x64_0_0_0 : ∀ a, (![0, 0, 0] : Fin 3 → Nat) a + S32x40x64.size a ≤ S32x40x64.size a
  h_S32x40x64 : 0 < S32x40x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  shapeCasts_S32x40x64_S1280x64 : S32x40x64.ShapeCasts S1280x64
  shapeCasts_S1280x64_S32x40x64 : S1280x64.ShapeCasts S32x40x64
  slices_S32x40x64_o0_0_0_S32x1x64 : S32x40x64.Slices ![0, 0, 0] S32x1x64
  shapeCasts_S32x1x64_S32x64 : S32x1x64.ShapeCasts S32x64
  slices_S32x40x64_o0_1_0_S32x39x64 : S32x40x64.Slices ![0, 1, 0] S32x39x64
  shapeCasts_S32x64_S32x1x64 : S32x64.ShapeCasts S32x1x64
  broadcasts_S32x1x64_S32x39x64 : S32x1x64.Broadcasts S32x39x64
  shapeCasts_S32x39x64_S32x2496 : S32x39x64.ShapeCasts S32x2496
  inb_S32x49920_S32x2496_0_0 : ∀ a, (![0, 0] : Fin 2 → Nat) a + S32x2496.size a ≤ S32x49920.size a
  h_S32x2496 : 0 < S32x2496.numel
  slices_S32x40x64_o0_1_0_S32x1x64 : S32x40x64.Slices ![0, 1, 0] S32x1x64
  slices_S32x40x64_o0_2_0_S32x38x64 : S32x40x64.Slices ![0, 2, 0] S32x38x64
  broadcasts_S32x1x64_S32x38x64 : S32x1x64.Broadcasts S32x38x64
  shapeCasts_S32x38x64_S32x2432 : S32x38x64.ShapeCasts S32x2432
  inb_S32x49920_S32x2432_0_2496 : ∀ a, (![0, 2496] : Fin 2 → Nat) a + S32x2432.size a ≤ S32x49920.size a
  h_S32x2432 : 0 < S32x2432.numel
  slices_S32x40x64_o0_2_0_S32x1x64 : S32x40x64.Slices ![0, 2, 0] S32x1x64
  slices_S32x40x64_o0_3_0_S32x37x64 : S32x40x64.Slices ![0, 3, 0] S32x37x64
  broadcasts_S32x1x64_S32x37x64 : S32x1x64.Broadcasts S32x37x64
  shapeCasts_S32x37x64_S32x2368 : S32x37x64.ShapeCasts S32x2368
  inb_S32x49920_S32x2368_0_4928 : ∀ a, (![0, 4928] : Fin 2 → Nat) a + S32x2368.size a ≤ S32x49920.size a
  h_S32x2368 : 0 < S32x2368.numel
  slices_S32x40x64_o0_3_0_S32x1x64 : S32x40x64.Slices ![0, 3, 0] S32x1x64
  slices_S32x40x64_o0_4_0_S32x36x64 : S32x40x64.Slices ![0, 4, 0] S32x36x64
  broadcasts_S32x1x64_S32x36x64 : S32x1x64.Broadcasts S32x36x64
  shapeCasts_S32x36x64_S32x2304 : S32x36x64.ShapeCasts S32x2304
  inb_S32x49920_S32x2304_0_7296 : ∀ a, (![0, 7296] : Fin 2 → Nat) a + S32x2304.size a ≤ S32x49920.size a
  h_S32x2304 : 0 < S32x2304.numel
  slices_S32x40x64_o0_4_0_S32x1x64 : S32x40x64.Slices ![0, 4, 0] S32x1x64
  slices_S32x40x64_o0_5_0_S32x35x64 : S32x40x64.Slices ![0, 5, 0] S32x35x64
  broadcasts_S32x1x64_S32x35x64 : S32x1x64.Broadcasts S32x35x64
  shapeCasts_S32x35x64_S32x2240 : S32x35x64.ShapeCasts S32x2240
  inb_S32x49920_S32x2240_0_9600 : ∀ a, (![0, 9600] : Fin 2 → Nat) a + S32x2240.size a ≤ S32x49920.size a
  h_S32x2240 : 0 < S32x2240.numel
  slices_S32x40x64_o0_5_0_S32x1x64 : S32x40x64.Slices ![0, 5, 0] S32x1x64
  slices_S32x40x64_o0_6_0_S32x34x64 : S32x40x64.Slices ![0, 6, 0] S32x34x64
  broadcasts_S32x1x64_S32x34x64 : S32x1x64.Broadcasts S32x34x64
  shapeCasts_S32x34x64_S32x2176 : S32x34x64.ShapeCasts S32x2176
  inb_S32x49920_S32x2176_0_11840 : ∀ a, (![0, 11840] : Fin 2 → Nat) a + S32x2176.size a ≤ S32x49920.size a
  h_S32x2176 : 0 < S32x2176.numel
  slices_S32x40x64_o0_6_0_S32x1x64 : S32x40x64.Slices ![0, 6, 0] S32x1x64
  slices_S32x40x64_o0_7_0_S32x33x64 : S32x40x64.Slices ![0, 7, 0] S32x33x64
  broadcasts_S32x1x64_S32x33x64 : S32x1x64.Broadcasts S32x33x64
  shapeCasts_S32x33x64_S32x2112 : S32x33x64.ShapeCasts S32x2112
  inb_S32x49920_S32x2112_0_14016 : ∀ a, (![0, 14016] : Fin 2 → Nat) a + S32x2112.size a ≤ S32x49920.size a
  h_S32x2112 : 0 < S32x2112.numel
  slices_S32x40x64_o0_7_0_S32x1x64 : S32x40x64.Slices ![0, 7, 0] S32x1x64
  slices_S32x40x64_o0_8_0_S32x32x64 : S32x40x64.Slices ![0, 8, 0] S32x32x64
  broadcasts_S32x1x64_S32x32x64 : S32x1x64.Broadcasts S32x32x64
  shapeCasts_S32x32x64_S32x2048 : S32x32x64.ShapeCasts S32x2048
  inb_S32x49920_S32x2048_0_16128 : ∀ a, (![0, 16128] : Fin 2 → Nat) a + S32x2048.size a ≤ S32x49920.size a
  h_S32x2048 : 0 < S32x2048.numel
  slices_S32x40x64_o0_8_0_S32x1x64 : S32x40x64.Slices ![0, 8, 0] S32x1x64
  slices_S32x40x64_o0_9_0_S32x31x64 : S32x40x64.Slices ![0, 9, 0] S32x31x64
  broadcasts_S32x1x64_S32x31x64 : S32x1x64.Broadcasts S32x31x64
  shapeCasts_S32x31x64_S32x1984 : S32x31x64.ShapeCasts S32x1984
  inb_S32x49920_S32x1984_0_18176 : ∀ a, (![0, 18176] : Fin 2 → Nat) a + S32x1984.size a ≤ S32x49920.size a
  h_S32x1984 : 0 < S32x1984.numel
  slices_S32x40x64_o0_9_0_S32x1x64 : S32x40x64.Slices ![0, 9, 0] S32x1x64
  slices_S32x40x64_o0_10_0_S32x30x64 : S32x40x64.Slices ![0, 10, 0] S32x30x64
  broadcasts_S32x1x64_S32x30x64 : S32x1x64.Broadcasts S32x30x64
  shapeCasts_S32x30x64_S32x1920 : S32x30x64.ShapeCasts S32x1920
  inb_S32x49920_S32x1920_0_20160 : ∀ a, (![0, 20160] : Fin 2 → Nat) a + S32x1920.size a ≤ S32x49920.size a
  h_S32x1920 : 0 < S32x1920.numel
  slices_S32x40x64_o0_10_0_S32x1x64 : S32x40x64.Slices ![0, 10, 0] S32x1x64
  slices_S32x40x64_o0_11_0_S32x29x64 : S32x40x64.Slices ![0, 11, 0] S32x29x64
  broadcasts_S32x1x64_S32x29x64 : S32x1x64.Broadcasts S32x29x64
  shapeCasts_S32x29x64_S32x1856 : S32x29x64.ShapeCasts S32x1856
  inb_S32x49920_S32x1856_0_22080 : ∀ a, (![0, 22080] : Fin 2 → Nat) a + S32x1856.size a ≤ S32x49920.size a
  h_S32x1856 : 0 < S32x1856.numel
  slices_S32x40x64_o0_11_0_S32x1x64 : S32x40x64.Slices ![0, 11, 0] S32x1x64
  slices_S32x40x64_o0_12_0_S32x28x64 : S32x40x64.Slices ![0, 12, 0] S32x28x64
  broadcasts_S32x1x64_S32x28x64 : S32x1x64.Broadcasts S32x28x64
  shapeCasts_S32x28x64_S32x1792 : S32x28x64.ShapeCasts S32x1792
  inb_S32x49920_S32x1792_0_23936 : ∀ a, (![0, 23936] : Fin 2 → Nat) a + S32x1792.size a ≤ S32x49920.size a
  h_S32x1792 : 0 < S32x1792.numel
  slices_S32x40x64_o0_12_0_S32x1x64 : S32x40x64.Slices ![0, 12, 0] S32x1x64
  slices_S32x40x64_o0_13_0_S32x27x64 : S32x40x64.Slices ![0, 13, 0] S32x27x64
  broadcasts_S32x1x64_S32x27x64 : S32x1x64.Broadcasts S32x27x64
  shapeCasts_S32x27x64_S32x1728 : S32x27x64.ShapeCasts S32x1728
  inb_S32x49920_S32x1728_0_25728 : ∀ a, (![0, 25728] : Fin 2 → Nat) a + S32x1728.size a ≤ S32x49920.size a
  h_S32x1728 : 0 < S32x1728.numel
  slices_S32x40x64_o0_13_0_S32x1x64 : S32x40x64.Slices ![0, 13, 0] S32x1x64
  slices_S32x40x64_o0_14_0_S32x26x64 : S32x40x64.Slices ![0, 14, 0] S32x26x64
  broadcasts_S32x1x64_S32x26x64 : S32x1x64.Broadcasts S32x26x64
  shapeCasts_S32x26x64_S32x1664 : S32x26x64.ShapeCasts S32x1664
  inb_S32x49920_S32x1664_0_27456 : ∀ a, (![0, 27456] : Fin 2 → Nat) a + S32x1664.size a ≤ S32x49920.size a
  h_S32x1664 : 0 < S32x1664.numel
  slices_S32x40x64_o0_14_0_S32x1x64 : S32x40x64.Slices ![0, 14, 0] S32x1x64
  slices_S32x40x64_o0_15_0_S32x25x64 : S32x40x64.Slices ![0, 15, 0] S32x25x64
  broadcasts_S32x1x64_S32x25x64 : S32x1x64.Broadcasts S32x25x64
  shapeCasts_S32x25x64_S32x1600 : S32x25x64.ShapeCasts S32x1600
  inb_S32x49920_S32x1600_0_29120 : ∀ a, (![0, 29120] : Fin 2 → Nat) a + S32x1600.size a ≤ S32x49920.size a
  h_S32x1600 : 0 < S32x1600.numel
  slices_S32x40x64_o0_15_0_S32x1x64 : S32x40x64.Slices ![0, 15, 0] S32x1x64
  slices_S32x40x64_o0_16_0_S32x24x64 : S32x40x64.Slices ![0, 16, 0] S32x24x64
  broadcasts_S32x1x64_S32x24x64 : S32x1x64.Broadcasts S32x24x64
  shapeCasts_S32x24x64_S32x1536 : S32x24x64.ShapeCasts S32x1536
  inb_S32x49920_S32x1536_0_30720 : ∀ a, (![0, 30720] : Fin 2 → Nat) a + S32x1536.size a ≤ S32x49920.size a
  h_S32x1536 : 0 < S32x1536.numel
  slices_S32x40x64_o0_16_0_S32x1x64 : S32x40x64.Slices ![0, 16, 0] S32x1x64
  slices_S32x40x64_o0_17_0_S32x23x64 : S32x40x64.Slices ![0, 17, 0] S32x23x64
  broadcasts_S32x1x64_S32x23x64 : S32x1x64.Broadcasts S32x23x64
  shapeCasts_S32x23x64_S32x1472 : S32x23x64.ShapeCasts S32x1472
  inb_S32x49920_S32x1472_0_32256 : ∀ a, (![0, 32256] : Fin 2 → Nat) a + S32x1472.size a ≤ S32x49920.size a
  h_S32x1472 : 0 < S32x1472.numel
  slices_S32x40x64_o0_17_0_S32x1x64 : S32x40x64.Slices ![0, 17, 0] S32x1x64
  slices_S32x40x64_o0_18_0_S32x22x64 : S32x40x64.Slices ![0, 18, 0] S32x22x64
  broadcasts_S32x1x64_S32x22x64 : S32x1x64.Broadcasts S32x22x64
  shapeCasts_S32x22x64_S32x1408 : S32x22x64.ShapeCasts S32x1408
  inb_S32x49920_S32x1408_0_33728 : ∀ a, (![0, 33728] : Fin 2 → Nat) a + S32x1408.size a ≤ S32x49920.size a
  h_S32x1408 : 0 < S32x1408.numel
  slices_S32x40x64_o0_18_0_S32x1x64 : S32x40x64.Slices ![0, 18, 0] S32x1x64
  slices_S32x40x64_o0_19_0_S32x21x64 : S32x40x64.Slices ![0, 19, 0] S32x21x64
  broadcasts_S32x1x64_S32x21x64 : S32x1x64.Broadcasts S32x21x64
  shapeCasts_S32x21x64_S32x1344 : S32x21x64.ShapeCasts S32x1344
  inb_S32x49920_S32x1344_0_35136 : ∀ a, (![0, 35136] : Fin 2 → Nat) a + S32x1344.size a ≤ S32x49920.size a
  h_S32x1344 : 0 < S32x1344.numel
  slices_S32x40x64_o0_19_0_S32x1x64 : S32x40x64.Slices ![0, 19, 0] S32x1x64
  slices_S32x40x64_o0_20_0_S32x20x64 : S32x40x64.Slices ![0, 20, 0] S32x20x64
  broadcasts_S32x1x64_S32x20x64 : S32x1x64.Broadcasts S32x20x64
  shapeCasts_S32x20x64_S32x1280 : S32x20x64.ShapeCasts S32x1280
  inb_S32x49920_S32x1280_0_36480 : ∀ a, (![0, 36480] : Fin 2 → Nat) a + S32x1280.size a ≤ S32x49920.size a
  h_S32x1280 : 0 < S32x1280.numel
  slices_S32x40x64_o0_20_0_S32x1x64 : S32x40x64.Slices ![0, 20, 0] S32x1x64
  slices_S32x40x64_o0_21_0_S32x19x64 : S32x40x64.Slices ![0, 21, 0] S32x19x64
  broadcasts_S32x1x64_S32x19x64 : S32x1x64.Broadcasts S32x19x64
  shapeCasts_S32x19x64_S32x1216 : S32x19x64.ShapeCasts S32x1216
  inb_S32x49920_S32x1216_0_37760 : ∀ a, (![0, 37760] : Fin 2 → Nat) a + S32x1216.size a ≤ S32x49920.size a
  h_S32x1216 : 0 < S32x1216.numel
  slices_S32x40x64_o0_21_0_S32x1x64 : S32x40x64.Slices ![0, 21, 0] S32x1x64
  slices_S32x40x64_o0_22_0_S32x18x64 : S32x40x64.Slices ![0, 22, 0] S32x18x64
  broadcasts_S32x1x64_S32x18x64 : S32x1x64.Broadcasts S32x18x64
  shapeCasts_S32x18x64_S32x1152 : S32x18x64.ShapeCasts S32x1152
  inb_S32x49920_S32x1152_0_38976 : ∀ a, (![0, 38976] : Fin 2 → Nat) a + S32x1152.size a ≤ S32x49920.size a
  h_S32x1152 : 0 < S32x1152.numel
  slices_S32x40x64_o0_22_0_S32x1x64 : S32x40x64.Slices ![0, 22, 0] S32x1x64
  slices_S32x40x64_o0_23_0_S32x17x64 : S32x40x64.Slices ![0, 23, 0] S32x17x64
  broadcasts_S32x1x64_S32x17x64 : S32x1x64.Broadcasts S32x17x64
  shapeCasts_S32x17x64_S32x1088 : S32x17x64.ShapeCasts S32x1088
  inb_S32x49920_S32x1088_0_40128 : ∀ a, (![0, 40128] : Fin 2 → Nat) a + S32x1088.size a ≤ S32x49920.size a
  h_S32x1088 : 0 < S32x1088.numel
  slices_S32x40x64_o0_23_0_S32x1x64 : S32x40x64.Slices ![0, 23, 0] S32x1x64
  slices_S32x40x64_o0_24_0_S32x16x64 : S32x40x64.Slices ![0, 24, 0] S32x16x64
  broadcasts_S32x1x64_S32x16x64 : S32x1x64.Broadcasts S32x16x64
  shapeCasts_S32x16x64_S32x1024 : S32x16x64.ShapeCasts S32x1024
  inb_S32x49920_S32x1024_0_41216 : ∀ a, (![0, 41216] : Fin 2 → Nat) a + S32x1024.size a ≤ S32x49920.size a
  h_S32x1024 : 0 < S32x1024.numel
  slices_S32x40x64_o0_24_0_S32x1x64 : S32x40x64.Slices ![0, 24, 0] S32x1x64
  slices_S32x40x64_o0_25_0_S32x15x64 : S32x40x64.Slices ![0, 25, 0] S32x15x64
  broadcasts_S32x1x64_S32x15x64 : S32x1x64.Broadcasts S32x15x64
  shapeCasts_S32x15x64_S32x960 : S32x15x64.ShapeCasts S32x960
  inb_S32x49920_S32x960_0_42240 : ∀ a, (![0, 42240] : Fin 2 → Nat) a + S32x960.size a ≤ S32x49920.size a
  h_S32x960 : 0 < S32x960.numel
  slices_S32x40x64_o0_25_0_S32x1x64 : S32x40x64.Slices ![0, 25, 0] S32x1x64
  slices_S32x40x64_o0_26_0_S32x14x64 : S32x40x64.Slices ![0, 26, 0] S32x14x64
  broadcasts_S32x1x64_S32x14x64 : S32x1x64.Broadcasts S32x14x64
  shapeCasts_S32x14x64_S32x896 : S32x14x64.ShapeCasts S32x896
  inb_S32x49920_S32x896_0_43200 : ∀ a, (![0, 43200] : Fin 2 → Nat) a + S32x896.size a ≤ S32x49920.size a
  h_S32x896 : 0 < S32x896.numel
  slices_S32x40x64_o0_26_0_S32x1x64 : S32x40x64.Slices ![0, 26, 0] S32x1x64
  slices_S32x40x64_o0_27_0_S32x13x64 : S32x40x64.Slices ![0, 27, 0] S32x13x64
  broadcasts_S32x1x64_S32x13x64 : S32x1x64.Broadcasts S32x13x64
  shapeCasts_S32x13x64_S32x832 : S32x13x64.ShapeCasts S32x832
  inb_S32x49920_S32x832_0_44096 : ∀ a, (![0, 44096] : Fin 2 → Nat) a + S32x832.size a ≤ S32x49920.size a
  h_S32x832 : 0 < S32x832.numel
  slices_S32x40x64_o0_27_0_S32x1x64 : S32x40x64.Slices ![0, 27, 0] S32x1x64
  slices_S32x40x64_o0_28_0_S32x12x64 : S32x40x64.Slices ![0, 28, 0] S32x12x64
  broadcasts_S32x1x64_S32x12x64 : S32x1x64.Broadcasts S32x12x64
  shapeCasts_S32x12x64_S32x768 : S32x12x64.ShapeCasts S32x768
  inb_S32x49920_S32x768_0_44928 : ∀ a, (![0, 44928] : Fin 2 → Nat) a + S32x768.size a ≤ S32x49920.size a
  h_S32x768 : 0 < S32x768.numel
  slices_S32x40x64_o0_28_0_S32x1x64 : S32x40x64.Slices ![0, 28, 0] S32x1x64
  slices_S32x40x64_o0_29_0_S32x11x64 : S32x40x64.Slices ![0, 29, 0] S32x11x64
  broadcasts_S32x1x64_S32x11x64 : S32x1x64.Broadcasts S32x11x64
  shapeCasts_S32x11x64_S32x704 : S32x11x64.ShapeCasts S32x704
  inb_S32x49920_S32x704_0_45696 : ∀ a, (![0, 45696] : Fin 2 → Nat) a + S32x704.size a ≤ S32x49920.size a
  h_S32x704 : 0 < S32x704.numel
  slices_S32x40x64_o0_29_0_S32x1x64 : S32x40x64.Slices ![0, 29, 0] S32x1x64
  slices_S32x40x64_o0_30_0_S32x10x64 : S32x40x64.Slices ![0, 30, 0] S32x10x64
  broadcasts_S32x1x64_S32x10x64 : S32x1x64.Broadcasts S32x10x64
  shapeCasts_S32x10x64_S32x640 : S32x10x64.ShapeCasts S32x640
  inb_S32x49920_S32x640_0_46400 : ∀ a, (![0, 46400] : Fin 2 → Nat) a + S32x640.size a ≤ S32x49920.size a
  h_S32x640 : 0 < S32x640.numel
  slices_S32x40x64_o0_30_0_S32x1x64 : S32x40x64.Slices ![0, 30, 0] S32x1x64
  slices_S32x40x64_o0_31_0_S32x9x64 : S32x40x64.Slices ![0, 31, 0] S32x9x64
  broadcasts_S32x1x64_S32x9x64 : S32x1x64.Broadcasts S32x9x64
  shapeCasts_S32x9x64_S32x576 : S32x9x64.ShapeCasts S32x576
  inb_S32x49920_S32x576_0_47040 : ∀ a, (![0, 47040] : Fin 2 → Nat) a + S32x576.size a ≤ S32x49920.size a
  h_S32x576 : 0 < S32x576.numel
  slices_S32x40x64_o0_31_0_S32x1x64 : S32x40x64.Slices ![0, 31, 0] S32x1x64
  slices_S32x40x64_o0_32_0_S32x8x64 : S32x40x64.Slices ![0, 32, 0] S32x8x64
  broadcasts_S32x1x64_S32x8x64 : S32x1x64.Broadcasts S32x8x64
  shapeCasts_S32x8x64_S32x512 : S32x8x64.ShapeCasts S32x512
  inb_S32x49920_S32x512_0_47616 : ∀ a, (![0, 47616] : Fin 2 → Nat) a + S32x512.size a ≤ S32x49920.size a
  h_S32x512 : 0 < S32x512.numel
  slices_S32x40x64_o0_32_0_S32x1x64 : S32x40x64.Slices ![0, 32, 0] S32x1x64
  slices_S32x40x64_o0_33_0_S32x7x64 : S32x40x64.Slices ![0, 33, 0] S32x7x64
  broadcasts_S32x1x64_S32x7x64 : S32x1x64.Broadcasts S32x7x64
  shapeCasts_S32x7x64_S32x448 : S32x7x64.ShapeCasts S32x448
  inb_S32x49920_S32x448_0_48128 : ∀ a, (![0, 48128] : Fin 2 → Nat) a + S32x448.size a ≤ S32x49920.size a
  h_S32x448 : 0 < S32x448.numel
  slices_S32x40x64_o0_33_0_S32x1x64 : S32x40x64.Slices ![0, 33, 0] S32x1x64
  slices_S32x40x64_o0_34_0_S32x6x64 : S32x40x64.Slices ![0, 34, 0] S32x6x64
  broadcasts_S32x1x64_S32x6x64 : S32x1x64.Broadcasts S32x6x64
  shapeCasts_S32x6x64_S32x384 : S32x6x64.ShapeCasts S32x384
  inb_S32x49920_S32x384_0_48576 : ∀ a, (![0, 48576] : Fin 2 → Nat) a + S32x384.size a ≤ S32x49920.size a
  h_S32x384 : 0 < S32x384.numel
  slices_S32x40x64_o0_34_0_S32x1x64 : S32x40x64.Slices ![0, 34, 0] S32x1x64
  slices_S32x40x64_o0_35_0_S32x5x64 : S32x40x64.Slices ![0, 35, 0] S32x5x64
  broadcasts_S32x1x64_S32x5x64 : S32x1x64.Broadcasts S32x5x64
  shapeCasts_S32x5x64_S32x320 : S32x5x64.ShapeCasts S32x320
  inb_S32x49920_S32x320_0_48960 : ∀ a, (![0, 48960] : Fin 2 → Nat) a + S32x320.size a ≤ S32x49920.size a
  h_S32x320 : 0 < S32x320.numel
  slices_S32x40x64_o0_35_0_S32x1x64 : S32x40x64.Slices ![0, 35, 0] S32x1x64
  slices_S32x40x64_o0_36_0_S32x4x64 : S32x40x64.Slices ![0, 36, 0] S32x4x64
  broadcasts_S32x1x64_S32x4x64 : S32x1x64.Broadcasts S32x4x64
  shapeCasts_S32x4x64_S32x256 : S32x4x64.ShapeCasts S32x256
  inb_S32x49920_S32x256_0_49280 : ∀ a, (![0, 49280] : Fin 2 → Nat) a + S32x256.size a ≤ S32x49920.size a
  h_S32x256 : 0 < S32x256.numel
  slices_S32x40x64_o0_36_0_S32x1x64 : S32x40x64.Slices ![0, 36, 0] S32x1x64
  slices_S32x40x64_o0_37_0_S32x3x64 : S32x40x64.Slices ![0, 37, 0] S32x3x64
  broadcasts_S32x1x64_S32x3x64 : S32x1x64.Broadcasts S32x3x64
  shapeCasts_S32x3x64_S32x192 : S32x3x64.ShapeCasts S32x192
  inb_S32x49920_S32x192_0_49536 : ∀ a, (![0, 49536] : Fin 2 → Nat) a + S32x192.size a ≤ S32x49920.size a
  h_S32x192 : 0 < S32x192.numel
  slices_S32x40x64_o0_37_0_S32x1x64 : S32x40x64.Slices ![0, 37, 0] S32x1x64
  slices_S32x40x64_o0_38_0_S32x2x64 : S32x40x64.Slices ![0, 38, 0] S32x2x64
  broadcasts_S32x1x64_S32x2x64 : S32x1x64.Broadcasts S32x2x64
  shapeCasts_S32x2x64_S32x128 : S32x2x64.ShapeCasts S32x128
  inb_S32x49920_S32x128_0_49728 : ∀ a, (![0, 49728] : Fin 2 → Nat) a + S32x128.size a ≤ S32x49920.size a
  h_S32x128 : 0 < S32x128.numel
  slices_S32x40x64_o0_38_0_S32x1x64 : S32x40x64.Slices ![0, 38, 0] S32x1x64
  slices_S32x40x64_o0_39_0_S32x1x64 : S32x40x64.Slices ![0, 39, 0] S32x1x64
  inb_S32x49920_S32x64_0_49856 : ∀ a, (![0, 49856] : Fin 2 → Nat) a + S32x64.size a ≤ S32x49920.size a
  h_S32x64 : 0 < S32x64.numel
  dot_S1280x64_S64x64_S1280x64_1_0_0_1_n_n_wf : DotDims.WF S1280x64 S64x64 S1280x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x40x64.size a ≤ S2048x40x64.size a
  hwx0_0 : ∀ i : grid0.Coords, EltTy.bits .f32 = 32 ∨ (Rect.block (s := S2048x40x64) S32x40x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x49920.size a ≤ S2048x49920.size a
  hwx0_2 : ∀ i : grid0.Coords, EltTy.bits .f32 = 32 ∨ (Rect.block (s := S2048x49920) S32x49920.size (cc0_transform_2 i) (hinb0_2 i)).WholeWords (EltTy.packing .f32)

variable [Facts₀]

def dot_S1280x64_S64x64_S1280x64_1_0_0_1_n_n : DotDims S1280x64 S64x64 S1280x64 where
  lhsContracting := [1]
  rhsContracting := [0]
  lhsNonContracting := [0]
  rhsNonContracting := [1]
  lhsBatch := []
  rhsBatch := []
  wf := dot_S1280x64_S64x64_S1280x64_1_0_0_1_n_n_wf

abbrev win0_0 : Pipeline.Window sig grid0 :=
  Pipeline.Window.ofSpec (Memref.whole main_arg0) S32x40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x49920.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x40x64 : Shape := ⟨3, ![2048, 40, 64]⟩
abbrev S64x64 : Shape := ⟨2, ![64, 64]⟩
abbrev S780 : Shape := ⟨1, ![780]⟩
abbrev S_ : Shape := ⟨0, ![]⟩
abbrev S780x1 : Shape := ⟨2, ![780, 1]⟩
abbrev S2048x780x64 : Shape := ⟨3, ![2048, 780, 64]⟩
abbrev S2048x49920 : Shape := ⟨2, ![2048, 49920]⟩

abbrev nBuf : Space → Nat
  | .hbm => 25
  | .vmem => 0
  | .smem => 0
  | _ => 0

abbrev bufTy : (tb : Table) → Fin (tcTables nBuf tb) → BufTy
  | .hbm, ⟨0, _⟩ => ⟨S2048x40x64, .f32⟩
  | .hbm, ⟨1, _⟩ => ⟨S64x64, .f32⟩
  | .hbm, ⟨2, _⟩ => ⟨S780, .i32⟩
  | .hbm, ⟨3, _⟩ => ⟨S780, .i32⟩
  | .hbm, ⟨4, _⟩ => ⟨S2048x40x64, .f32⟩
  | .hbm, ⟨5, _⟩ => ⟨S_, .i32⟩
  | .hbm, ⟨6, _⟩ => ⟨S780, .i32⟩
  | .hbm, ⟨7, _⟩ => ⟨S780, .i1⟩
  | .hbm, ⟨8, _⟩ => ⟨S_, .i32⟩
  | .hbm, ⟨9, _⟩ => ⟨S780, .i32⟩
  | .hbm, ⟨10, _⟩ => ⟨S780, .i32⟩
  | .hbm, ⟨11, _⟩ => ⟨S780, .i32⟩
  | .hbm, ⟨12, _⟩ => ⟨S780x1, .i32⟩
  | .hbm, ⟨13, _⟩ => ⟨S2048x780x64, .f32⟩
  | .hbm, ⟨14, _⟩ => ⟨S_, .i32⟩
  | .hbm, ⟨15, _⟩ => ⟨S780, .i32⟩
  | .hbm, ⟨16, _⟩ => ⟨S780, .i1⟩
  | .hbm, ⟨17, _⟩ => ⟨S_, .i32⟩
  | .hbm, ⟨18, _⟩ => ⟨S780, .i32⟩
  | .hbm, ⟨19, _⟩ => ⟨S780, .i32⟩
  | .hbm, ⟨20, _⟩ => ⟨S780, .i32⟩
  | .hbm, ⟨21, _⟩ => ⟨S780x1, .i32⟩
  | .hbm, ⟨22, _⟩ => ⟨S2048x780x64, .f32⟩
  | .hbm, ⟨23, _⟩ => ⟨S2048x780x64, .f32⟩
  | .hbm, ⟨24, _⟩ => ⟨S2048x49920, .f32⟩
  | _, _ => ⟨S2048x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S780 : S_.BroadcastsInDim S780 (![] : Fin 0 → Fin S780.rank)
  bcast_S780_S780x1_0 : S780.BroadcastsInDim S780x1 (![0] : Fin 1 → Fin S780x1.rank)
  shapeCasts_S2048x780x64_S2048x49920 : S2048x780x64.ShapeCasts S2048x49920
  dot_S2048x40x64_S64x64_S2048x40x64_2_0_01_1_n_n_wf : DotDims.WF S2048x40x64 S64x64 S2048x40x64 [2] [0] [0, 1] [1] [] []
  gather_S2048x40x64_S780x1_S2048x780x64_02_1_n_n_1_1_2048164_wf : GatherDims.WF S2048x40x64 S780x1 S2048x780x64 [0, 2] [1] [] [1] [] 1 ![2048, 1, 64]

variable [Facts₀]

def dot_S2048x40x64_S64x64_S2048x40x64_2_0_01_1_n_n : DotDims S2048x40x64 S64x64 S2048x40x64 where
  lhsContracting := [2]
  rhsContracting := [0]
  lhsNonContracting := [0, 1]
  rhsNonContracting := [1]
  lhsBatch := []
  rhsBatch := []
  wf := dot_S2048x40x64_S64x64_S2048x40x64_2_0_01_1_n_n_wf
def gather_S2048x40x64_S780x1_S2048x780x64_02_1_n_n_1_1_2048164 : GatherDims S2048x40x64 S780x1 S2048x780x64 where
  offsetDims := [0, 2]
  collapsedSliceDims := [1]
  operandBatchingDims := []
  startIndicesBatchingDims := []
  startIndexMap := [1]
  indexVectorDim := 1
  sliceSizes := ![2048, 1, 64]
  wf := gather_S2048x40x64_S780x1_S2048x780x64_02_1_n_n_1_1_2048164_wf

class Facts : Prop extends Facts₀ where

variable [Facts]
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KerMatmul.lean ====
/-
  The kernel's product of a block of `x` with `w`, read at an index.

  The block `[32, 40, 64]` is flattened to a `[1280, 64]` matrix (row `40 r + f` is field `f` of batch row `r`),
  multiplied by the `[64, 64]` matrix `w` into a zero accumulator, and split back into `[32, 40, 64]`.  Over the
  extended reals the format changes are the identity, so entry `(r, f, e)` is `∑ k, x[r, f, k] * w[k, e]`.
-/
import proofs.«402416_j19679540150798_3_alg».proof.Proof.Gen.KernelIdeal.Skeleton
import proofs.«402416_j19679540150798_3_alg».proof.Proof.LibRowCasts
import Idealize.ShloMosaic.PureOps.Ideal.Laws
import Idealize.ShloMosaic.Lib.ValueIdx
import Idealize.ShloMosaic.Lib.Pipeline.Value

noncomputable section

namespace Cert.KerMatmul

open Cert.KernelIdeal Cert.KernelIdeal.Gen Idealize.ShloMosaic Idealize.ShloMosaic.ValueIdx

/-- The product contracts one axis, -/
theorem contr_rank : dot_S1280x64_S64x64_S1280x64_1_0_0_1_n_n.contr.rank = 1 := rfl

/-- of 64 positions. -/
theorem contr_size :
    dot_S1280x64_S64x64_S1280x64_1_0_0_1_n_n.contr.size ⟨0, by rw [contr_rank]; exact Nat.one_pos⟩ = 64 := rfl

/-! The operand indices at result index `j` and contraction position `k`, axis by axis: the left operand is read
    at `(j 0, k)`, the right one at `(k, j 1)`. -/

/-- The left operand's row is the result's row. -/
theorem lhs_dot_S1280x64_S64x64_S1280x64_1_0_0_1_n_n_0 (j : S1280x64.Idx)
    (k : dot_S1280x64_S64x64_S1280x64_1_0_0_1_n_n.contr.Idx) :
    (dot_S1280x64_S64x64_S1280x64_1_0_0_1_n_n.lhsIdx j k 0).val = (j 0).val := by
  unfold DotDims.lhsIdx
  rw [dif_neg (show ¬ (0 : Fin S1280x64.rank) ∈ dot_S1280x64_S64x64_S1280x64_1_0_0_1_n_n.lhsBatch by decide),
    dif_pos (show (0 : Fin S1280x64.rank) ∈ dot_S1280x64_S64x64_S1280x64_1_0_0_1_n_n.lhsNonContracting by decide)]
  rfl

/-- The left operand's column is the contraction position. -/
theorem lhs_dot_S1280x64_S64x64_S1280x64_1_0_0_1_n_n_1 (j : S1280x64.Idx)
    (k : dot_S1280x64_S64x64_S1280x64_1_0_0_1_n_n.contr.Idx) :
    (dot_S1280x64_S64x64_S1280x64_1_0_0_1_n_n.lhsIdx j k 1).val
      = (k ⟨0, by rw [contr_rank]; exact Nat.one_pos⟩).val :=
  dot_S1280x64_S64x64_S1280x64_1_0_0_1_n_n.lhsIdx_val_of_single (cl := 1) rfl j k

/-- The right operand's row is the contraction position. -/
theorem rhs_dot_S1280x64_S64x64_S1280x64_1_0_0_1_n_n_0 (j : S1280x64.Idx)
    (k : dot_S1280x64_S64x64_S1280x64_1_0_0_1_n_n.contr.Idx) :
    (dot_S1280x64_S64x64_S1280x64_1_0_0_1_n_n.rhsIdx j k 0).val
      = (k ⟨0, by rw [contr_rank]; exact Nat.one_pos⟩).val :=
  dot_S1280x64_S64x64_S1280x64_1_0_0_1_n_n.rhsIdx_val_of_single (cr := 0) rfl j k

/-- The right operand's column is the result's column. -/
theorem rhs_dot_S1280x64_S64x64_S1280x64_1_0_0_1_n_n_1 (j : S1280x64.Idx)
    (k : dot_S1280x64_S64x64_S1280x64_1_0_0_1_n_n.contr.Idx) :
    (dot_S1280x64_S64x64_S1280x64_1_0_0_1_n_n.rhsIdx j k 1).val = (j 1).val := by
  unfold DotDims.rhsIdx
  rw [dif_neg (show ¬ (1 : Fin S64x64.rank) ∈ dot_S1280x64_S64x64_S1280x64_1_0_0_1_n_n.rhsBatch by decide),
    dif_pos (show (1 : Fin S64x64.rank) ∈ dot_S1280x64_S64x64_S1280x64_1_0_0_1_n_n.rhsNonContracting by decide)]
  rfl

/-- Entry `(r, f, e)` of the product: row `40 r + f` of the flattened block against column `e` of `w`. -/
theorem xw_apply (x0 : Vec Ideal S32x40x64 .f32) (x1 : Vec Ideal S64x64 .f32) (r : Fin 32) (f : Fin 40) (e : Fin 64) :
    k0_pay3 (F := Ideal) x0 x1 (ix3 r f e) = ∑ k : Fin 64, x0 (ix3 r f k) * x1 (ix2 k e) := by
  unfold k0_pay3
  -- the split back to [32, 40, 64] reads row 40 r + f of the matrix product
  refine (RowCasts.shapeCast_split_apply _ _ r f e ⟨r.val * 40 + f.val, by omega⟩ rfl).trans ?_
  -- into a zero accumulator the product's entry is the sum over the contraction positions
  refine (Ideal.matmul_constant_zero_apply _ none _ _ _).trans ?_
  -- the one-axis contraction position is a number below 64
  refine (Equiv.sum_comp
    (contrEquiv1 dot_S1280x64_S64x64_S1280x64_1_0_0_1_n_n 64 contr_rank contr_size).symm _).symm.trans ?_
  refine Finset.sum_congr rfl fun k _ => ?_
  have hk : (((contrEquiv1 dot_S1280x64_S64x64_S1280x64_1_0_0_1_n_n 64 contr_rank contr_size).symm k)
      ⟨0, by rw [contr_rank]; exact Nat.one_pos⟩ : ℕ) = k.val :=
    contrEquiv1_symm_val _ 64 contr_rank contr_size k
  -- the left operand is read at (40 r + f, k)
  have hl : dot_S1280x64_S64x64_S1280x64_1_0_0_1_n_n.lhsIdx (ix2 (⟨r.val * 40 + f.val, by omega⟩ : Fin 1280) e)
        ((contrEquiv1 dot_S1280x64_S64x64_S1280x64_1_0_0_1_n_n 64 contr_rank contr_size).symm k)
      = ix2 (⟨r.val * 40 + f.val, by omega⟩ : Fin 1280) k := by
    funext a
    match a with
    | ⟨0, _⟩ => exact Fin.ext (lhs_dot_S1280x64_S64x64_S1280x64_1_0_0_1_n_n_0 _ _)
    | ⟨1, _⟩ => exact Fin.ext ((lhs_dot_S1280x64_S64x64_S1280x64_1_0_0_1_n_n_1 _ _).trans hk)
  -- the right operand at (k, e)
  have hr : dot_S1280x64_S64x64_S1280x64_1_0_0_1_n_n.rhsIdx (ix2 (⟨r.val * 40 + f.val, by omega⟩ : Fin 1280) e)
        ((contrEquiv1 dot_S1280x64_S64x64_S1280x64_1_0_0_1_n_n 64 contr_rank contr_size).symm k)
      = ix2 k e := by
    funext a
    match a with
    | ⟨0, _⟩ => exact Fin.ext ((rhs_dot_S1280x64_S64x64_S1280x64_1_0_0_1_n_n_0 _ _).trans hk)
    | ⟨1, _⟩ => exact Fin.ext (rhs_dot_S1280x64_S64x64_S1280x64_1_0_0_1_n_n_1 _ _)
  rw [hl, hr]
  -- row 40 r + f of the flattened block is row (r, f) of the block
  refine congrArg (· * x1 (ix2 k e)) ?_
  exact RowCasts.shapeCast_merge_apply _ _ r f k _ rfl

end Cert.KerMatmul

end
-- ==== Proof.Spec.lean ====
/-
  The common specification of both programs, stated once over the extended reals.

  With `x : [2048, 40, 64]` (a batch of 40 field embeddings of width 64) and `w : [64, 64]`, put
  `xw[b, f, e] = ∑ k, x[b, f, k] * w[k, e]`.  The result has one block of 64 columns per unordered pair of
  fields `i < j`, the pairs listed row by row of the strict upper triangle (all `j > 0` for `i = 0`, then all
  `j > 1` for `i = 1`, …): pair number `p` is `(pairI p, pairJ p)`, and
  `G[b, 64 * p + e] = xw[b, pairI p, e] * x[b, pairJ p, e]`.

  Row `i` of the triangle holds `39 - i` pairs and starts at pair number `rowStart i = i * (79 - i) / 2`.
-/
import Idealize.ShloMosaic.PureOps.Ideal
import Idealize.ShloMosaic.Lib.ValueIdx

noncomputable section

namespace Cert.Spec

open Idealize.ShloMosaic Idealize.ShloMosaic.ValueIdx

/-- Walk down the rows of the strict upper triangle of a 40 × 40 table: from row `i` with `r` positions still to
    skip, the row and the position inside it where the walk ends (`fuel` bounds the number of rows visited). -/
def rowOf : Nat → Nat → Nat → Nat × Nat
  | 0, i, r => (i, r)
  | fuel + 1, i, r => if r < 39 - i then (i, r) else rowOf fuel (i + 1) (r - (39 - i))

/-- The smaller field of pair number `p`. -/
def pairIn (p : Nat) : Nat := (rowOf 40 0 p).1
/-- The larger field of pair number `p`: the position inside the row, past the diagonal. -/
def pairJn (p : Nat) : Nat := (rowOf 40 0 p).1 + 1 + (rowOf 40 0 p).2

/-- The number of the first pair of row `i`. -/
def rowStart (i : Nat) : Nat := i * (79 - i) / 2

/-- Pair number `rowStart i + k`, for `k` inside row `i`, is `(i, i + 1 + k)`. -/
theorem pair_at : ∀ i < 39, ∀ k < 39 - i, pairIn (rowStart i + k) = i ∧ pairJn (rowStart i + k) = i + 1 + k := by
  decide +kernel

/-- Both fields of every pair are fields. -/
theorem pair_lt : ∀ p < 780, pairIn p < 40 ∧ pairJn p < 40 := by
  decide +kernel

/-- The smaller field of pair `p`, as a field. -/
def pairI (p : Fin 780) : Fin 40 := ⟨pairIn p.val, (pair_lt p.val p.isLt).1⟩
/-- The larger field of pair `p`, as a field. -/
def pairJ (p : Fin 780) : Fin 40 := ⟨pairJn p.val, (pair_lt p.val p.isLt).2⟩

/-- `xw[b, f, e] = ∑ k, x[b, f, k] * w[k, e]`. -/
def xw (x : (⟨3, ![2048, 40, 64]⟩ : Shape).Idx → EReal) (w : (⟨2, ![64, 64]⟩ : Shape).Idx → EReal)
    (b : Fin 2048) (f : Fin 40) (e : Fin 64) : EReal :=
  ∑ k : Fin 64, x (ix3 b f k) * w (ix2 k e)

/-- The result at batch row `b`, pair `p`, lane `e`. -/
def Gat (x : (⟨3, ![2048, 40, 64]⟩ : Shape).Idx → EReal) (w : (⟨2, ![64, 64]⟩ : Shape).Idx → EReal)
    (b : Fin 2048) (p : Fin 780) (e : Fin 64) : EReal :=
  xw x w b (pairI p) e * x (ix3 b (pairJ p) e)

/-- The whole result array: column `c` is lane `c % 64` of pair `c / 64`. -/
def G (x : (⟨3, ![2048, 40, 64]⟩ : Shape).Idx → EReal) (w : (⟨2, ![64, 64]⟩ : Shape).Idx → EReal) :
    (⟨2, ![2048, 49920]⟩ : Shape).Idx → EReal :=
  fun y => Gat x w ⟨(y 0).val, idx2_lt0 y⟩ ⟨(y 1).val / 64, by have := idx2_lt1 y; omega⟩
    ⟨(y 1).val % 64, Nat.mod_lt _ (by norm_num)⟩

/-- The result at explicit coordinates. -/
theorem G_ix2 (x : (⟨3, ![2048, 40, 64]⟩ : Shape).Idx → EReal) (w : (⟨2, ![64, 64]⟩ : Shape).Idx → EReal)
    (b : Fin 2048) (c : Fin 49920) :
    G x w (ix2 b c) = Gat x w b ⟨c.val / 64, by omega⟩ ⟨c.val % 64, Nat.mod_lt _ (by norm_num)⟩ := rfl

/-- One block of 32 batch rows of the result, as a function of the block `x0` of 32 rows of `x` and of `w`:
    the same formula as `G`, the batch row counted inside the block. -/
def Gblk (x0 : (⟨3, ![32, 40, 64]⟩ : Shape).Idx → EReal) (w : (⟨2, ![64, 64]⟩ : Shape).Idx → EReal) :
    (⟨2, ![32, 49920]⟩ : Shape).Idx → EReal :=
  fun y => (∑ k : Fin 64, x0 (ix3 (⟨(y 0).val, idx2_lt0 y⟩ : Fin 32)
        (pairI ⟨(y 1).val / 64, by have := idx2_lt1 y; omega⟩) k) * w (ix2 k ⟨(y 1).val % 64, Nat.mod_lt _ (by norm_num)⟩))
    * x0 (ix3 (⟨(y 0).val, idx2_lt0 y⟩ : Fin 32) (pairJ ⟨(y 1).val / 64, by have := idx2_lt1 y; omega⟩)
        ⟨(y 1).val % 64, Nat.mod_lt _ (by norm_num)⟩)

/-- The block at explicit coordinates. -/
theorem Gblk_ix2 (x0 : (⟨3, ![32, 40, 64]⟩ : Shape).Idx → EReal) (w : (⟨2, ![64, 64]⟩ : Shape).Idx → EReal)
    (r : Fin 32) (c : Fin 49920) :
    Gblk x0 w (ix2 r c) = (∑ k : Fin 64, x0 (ix3 r (pairI ⟨c.val / 64, by omega⟩) k)
        * w (ix2 k ⟨c.val % 64, Nat.mod_lt _ (by norm_num)⟩))
      * x0 (ix3 r (pairJ ⟨c.val / 64, by omega⟩) ⟨c.val % 64, Nat.mod_lt _ (by norm_num)⟩) := rfl

/-- The result at explicit coordinates, the sum spelled out. -/
theorem G_ix2' (x : (⟨3, ![2048, 40, 64]⟩ : Shape).Idx → EReal) (w : (⟨2, ![64, 64]⟩ : Shape).Idx → EReal)
    (b : Fin 2048) (c : Fin 49920) :
    G x w (ix2 b c) = (∑ k : Fin 64, x (ix3 b (pairI ⟨c.val / 64, by omega⟩) k)
        * w (ix2 k ⟨c.val % 64, Nat.mod_lt _ (by norm_num)⟩))
      * x (ix3 b (pairJ ⟨c.val / 64, by omega⟩) ⟨c.val % 64, Nat.mod_lt _ (by norm_num)⟩) := rfl

end Cert.Spec

end
-- ==== Proof.KerChunk.lean ====
/-
  One chunk of the kernel's output block, read at an index.

  For a field `i` the kernel multiplies lane by lane the row `xw[·, i, ·]`, broadcast over `n` partner fields,
  with the fields `j, …, j + n - 1` of the input block (`j = i + 1`, `j + n = 40`), and flattens the product
  `[32, n, 64]` to `[32, n · 64]`.  Column `q` of the chunk is lane `q % 64` of partner `q / 64`:
  `xw[r, i, q % 64] * x[r, j + q / 64, q % 64]`.  Placed at column offset `64 · rowStart i` of the block this is
  the block's specification `Gblk` there, because pair number `rowStart i + k` is `(i, i + 1 + k)`.
-/
import Idealize.ShloMosaic.Lib.Pipeline.Value
import Idealize.ShloMosaic.Lib.ValueIdx
import Idealize.ShloMosaic.PureOps.Ideal
import proofs.«402416_j19679540150798_3_alg».proof.Proof.Spec

noncomputable section

namespace Cert.KerChunk

open Idealize.ShloMosaic Idealize.ShloMosaic.ValueIdx

variable {α : Type}

/-- Row `i` of a `[32, 40, 64]` array, taken out as `[32, 1, 64]`, flattened to `[32, 64]`, restored to `[32, 1, 64]`
    and broadcast over `n` fields: at `(r, k, e)` it is the array at `(r, i, e)`. -/
theorem row_bcast_apply (i n : Nat) (hi : i < 40) (v : (⟨3, ![32, 40, 64]⟩ : Shape).Idx → α)
    (h1 : (⟨3, ![32, 40, 64]⟩ : Shape).Slices ![0, i, 0] ⟨3, ![32, 1, 64]⟩)
    (h2 : (⟨3, ![32, 1, 64]⟩ : Shape).ShapeCasts ⟨2, ![32, 64]⟩)
    (h3 : (⟨2, ![32, 64]⟩ : Shape).ShapeCasts ⟨3, ![32, 1, 64]⟩)
    (h4 : (⟨3, ![32, 1, 64]⟩ : Shape).Broadcasts ⟨3, ![32, n, 64]⟩)
    (r : Fin 32) (k : Fin n) (e : Fin 64) :
    broadcastTo ⟨3, ![32, n, 64]⟩ (shapeCast ⟨3, ![32, 1, 64]⟩ (shapeCast ⟨2, ![32, 64]⟩
      (extractStridedSlice ⟨3, ![32, 1, 64]⟩ ![0, i, 0] v h1) h2) h3) h4 (ix3 r k e) = v (ix3 r ⟨i, hi⟩ e) := by
  rw [broadcastTo_apply _ h4 (ix3 r k e) (ix3 r (0 : Fin 1) e) (fun a => by
    match a with
    | ⟨0, _⟩ => rfl
    | ⟨1, _⟩ => rfl
    | ⟨2, _⟩ => rfl)]
  rw [shapeCast_apply _ h3 (ix3 r (0 : Fin 1) e) (ix2 r e) (by
    rw [Shape.rowMajor_val_three, Shape.rowMajor_val_two]
    show r.val * 64 + e.val = (r.val * 1 + 0) * 64 + e.val
    omega)]
  rw [shapeCast_apply _ h2 (ix2 r e) (ix3 r (0 : Fin 1) e) (by
    rw [Shape.rowMajor_val_three, Shape.rowMajor_val_two]
    show (r.val * 1 + 0) * 64 + e.val = r.val * 64 + e.val
    omega)]
  exact extractStridedSlice_apply _ v h1 (ix3 r (0 : Fin 1) e) (ix3 r ⟨i, hi⟩ e) (fun a => by
    match a with
    | ⟨0, _⟩ => exact (Nat.zero_add _).symm
    | ⟨1, _⟩ => rfl
    | ⟨2, _⟩ => exact (Nat.zero_add _).symm)

/-- The fields `j, …, j + n - 1` of a `[32, 40, 64]` array: at `(r, k, e)` the array at `(r, j + k, e)`. -/
theorem fields_apply (j n : Nat) (v : (⟨3, ![32, 40, 64]⟩ : Shape).Idx → α)
    (h5 : (⟨3, ![32, 40, 64]⟩ : Shape).Slices ![0, j, 0] ⟨3, ![32, n, 64]⟩)
    (r : Fin 32) (k : Fin n) (e : Fin 64) (hjk : j + k.val < 40) :
    extractStridedSlice ⟨3, ![32, n, 64]⟩ ![0, j, 0] v h5 (ix3 r k e) = v (ix3 r ⟨j + k.val, hjk⟩ e) :=
  extractStridedSlice_apply _ v h5 (ix3 r k e) (ix3 r ⟨j + k.val, hjk⟩ e) (fun a => by
    match a with
    | ⟨0, _⟩ => exact (Nat.zero_add _).symm
    | ⟨1, _⟩ => rfl
    | ⟨2, _⟩ => exact (Nat.zero_add _).symm)

/-- `[32, n, 64]` flattened to `[32, N]` with `N = n · 64`: column `q` is lane `q % 64` of field `q / 64`. -/
theorem flatten_apply (n N : Nat) (hN : N = n * 64) (v : (⟨3, ![32, n, 64]⟩ : Shape).Idx → α)
    (h6 : (⟨3, ![32, n, 64]⟩ : Shape).ShapeCasts ⟨2, ![32, N]⟩) (r : Fin 32) (q : Fin N) :
    shapeCast ⟨2, ![32, N]⟩ v h6 (ix2 r q)
      = v (ix3 r ⟨q.val / 64, by have := q.isLt; omega⟩ ⟨q.val % 64, Nat.mod_lt _ (by norm_num)⟩) :=
  shapeCast_apply v h6 _ _ (by
    rw [Shape.rowMajor_val_three, Shape.rowMajor_val_two]
    show (r.val * n + q.val / 64) * 64 + q.val % 64 = r.val * N + q.val
    subst hN
    rw [← Nat.mul_assoc]
    omega)

/-- THE CHUNK at `(r, q)`: `xw[r, i, q % 64] * x[r, j + q / 64, q % 64]`. -/
theorem chunk_apply (i j n N : Nat) (hi : i < 40) (hjn : j + n = 40) (hN : N = n * 64)
    (x0 xw : (⟨3, ![32, 40, 64]⟩ : Shape).Idx → EReal)
    (h1 : (⟨3, ![32, 40, 64]⟩ : Shape).Slices ![0, i, 0] ⟨3, ![32, 1, 64]⟩)
    (h2 : (⟨3, ![32, 1, 64]⟩ : Shape).ShapeCasts ⟨2, ![32, 64]⟩)
    (h3 : (⟨2, ![32, 64]⟩ : Shape).ShapeCasts ⟨3, ![32, 1, 64]⟩)
    (h4 : (⟨3, ![32, 1, 64]⟩ : Shape).Broadcasts ⟨3, ![32, n, 64]⟩)
    (h5 : (⟨3, ![32, 40, 64]⟩ : Shape).Slices ![0, j, 0] ⟨3, ![32, n, 64]⟩)
    (h6 : (⟨3, ![32, n, 64]⟩ : Shape).ShapeCasts ⟨2, ![32, N]⟩) (r : Fin 32) (q : Fin N) :
    shapeCast ⟨2, ![32, N]⟩ (mulf (F := Ideal) (φ := .f32)
        (broadcastTo ⟨3, ![32, n, 64]⟩ (shapeCast ⟨3, ![32, 1, 64]⟩ (shapeCast ⟨2, ![32, 64]⟩
          (extractStridedSlice ⟨3, ![32, 1, 64]⟩ ![0, i, 0] xw h1) h2) h3) h4)
        (extractStridedSlice ⟨3, ![32, n, 64]⟩ ![0, j, 0] x0 h5)) h6 (ix2 r q)
      = xw (ix3 r ⟨i, hi⟩ ⟨q.val % 64, Nat.mod_lt _ (by norm_num)⟩)
        * x0 (ix3 r ⟨j + q.val / 64, by have := q.isLt; omega⟩ ⟨q.val % 64, Nat.mod_lt _ (by norm_num)⟩) := by
  rw [flatten_apply n N hN _ h6 r q, mulf_apply, row_bcast_apply i n hi xw h1 h2 h3 h4, fields_apply j n x0 h5]

/-- The block's specification at a column of row `i`'s chunk: with the column `64 · (rowStart i + k) + e`,
    the pair is `(i, i + 1 + k)`. -/
theorem Gblk_at (x0 : (⟨3, ![32, 40, 64]⟩ : Shape).Idx → EReal) (w : (⟨2, ![64, 64]⟩ : Shape).Idx → EReal)
    (y : (⟨2, ![32, 49920]⟩ : Shape).Idx) (r : Fin 32) (i k : Nat) (e : Fin 64) (hi : i < 39) (hk : k < 39 - i)
    (hr : (y 0).val = r.val) (hc : (y 1).val = (Cert.Spec.rowStart i + k) * 64 + e.val) :
    Cert.Spec.Gblk x0 w y = (∑ k' : Fin 64, x0 (ix3 r ⟨i, by omega⟩ k') * w (ix2 k' e))
      * x0 (ix3 r ⟨i + 1 + k, by omega⟩ e) := by
  have hp : (y 1).val / 64 = Cert.Spec.rowStart i + k := by have := e.isLt; omega
  have he : (y 1).val % 64 = e.val := by have := e.isLt; omega
  have hI : Cert.Spec.pairI ⟨(y 1).val / 64, by have := idx2_lt1 y; omega⟩ = ⟨i, by omega⟩ :=
    Fin.ext (by show Cert.Spec.pairIn ((y 1).val / 64) = i; rw [hp]; exact (Cert.Spec.pair_at i hi k hk).1)
  have hJ : Cert.Spec.pairJ ⟨(y 1).val / 64, by have := idx2_lt1 y; omega⟩ = ⟨i + 1 + k, by omega⟩ :=
    Fin.ext (by show Cert.Spec.pairJn ((y 1).val / 64) = i + 1 + k; rw [hp]; exact (Cert.Spec.pair_at i hi k hk).2)
  have hR : (⟨(y 0).val, idx2_lt0 y⟩ : Fin 32) = r := Fin.ext hr
  have hE : (⟨(y 1).val % 64, Nat.mod_lt _ (by norm_num)⟩ : Fin 64) = e := Fin.ext he
  unfold Cert.Spec.Gblk
  rw [hI, hJ, hR, hE]

/-- THE CHUNK IN PLACE: the chunk of field `i`, stored at column offset `off = 64 · rowStart i` of the
    `[32, 49920]` block, agrees there with the block's specification, once `xw` is known to be the product
    of the block with `w`. -/
theorem piece (i j n N off : Nat) (hj : j = i + 1) (hjn : j + n = 40) (hN : N = n * 64)
    (hoff : off = Cert.Spec.rowStart i * 64)
    (x0 xw : (⟨3, ![32, 40, 64]⟩ : Shape).Idx → EReal) (x1 : (⟨2, ![64, 64]⟩ : Shape).Idx → EReal)
    (hxw : ∀ (r : Fin 32) (f : Fin 40) (e : Fin 64), xw (ix3 r f e) = ∑ k : Fin 64, x0 (ix3 r f k) * x1 (ix2 k e))
    (h1 : (⟨3, ![32, 40, 64]⟩ : Shape).Slices ![0, i, 0] ⟨3, ![32, 1, 64]⟩)
    (h2 : (⟨3, ![32, 1, 64]⟩ : Shape).ShapeCasts ⟨2, ![32, 64]⟩)
    (h3 : (⟨2, ![32, 64]⟩ : Shape).ShapeCasts ⟨3, ![32, 1, 64]⟩)
    (h4 : (⟨3, ![32, 1, 64]⟩ : Shape).Broadcasts ⟨3, ![32, n, 64]⟩)
    (h5 : (⟨3, ![32, 40, 64]⟩ : Shape).Slices ![0, j, 0] ⟨3, ![32, n, 64]⟩)
    (h6 : (⟨3, ![32, n, 64]⟩ : Shape).ShapeCasts ⟨2, ![32, N]⟩)
    (inb : ∀ a, (![0, off] : Fin 2 → Nat) a + (![32, N] : Fin 2 → Nat) a ≤ (⟨2, ![32, 49920]⟩ : Shape).size a)
    (x : (⟨2, ![32, N]⟩ : Shape).Idx) :
    shapeCast ⟨2, ![32, N]⟩ (mulf (F := Ideal) (φ := .f32)
        (broadcastTo ⟨3, ![32, n, 64]⟩ (shapeCast ⟨3, ![32, 1, 64]⟩ (shapeCast ⟨2, ![32, 64]⟩
          (extractStridedSlice ⟨3, ![32, 1, 64]⟩ ![0, i, 0] xw h1) h2) h3) h4)
        (extractStridedSlice ⟨3, ![32, n, 64]⟩ ![0, j, 0] x0 h5)) h6 x
      = Cert.Spec.Gblk x0 x1 ((Rect.unit (s := ⟨2, ![32, 49920]⟩) ![0, off] ![32, N] inb).emb x) := by
  obtain ⟨r, q, rfl⟩ : ∃ (r : Fin 32) (q : Fin N), x = ix2 r q := ⟨x 0, x 1, eq_ix2 x⟩
  subst hj
  have hq := q.isLt
  have hi : i < 39 := by omega
  rw [chunk_apply i (i + 1) n N (by omega) hjn hN x0 xw h1 h2 h3 h4 h5 h6 r q,
    Gblk_at x0 x1 _ r i (q.val / 64) ⟨q.val % 64, Nat.mod_lt _ (by norm_num)⟩ hi (by omega)
      (by show 0 + 1 * r.val = r.val; omega)
      (by show off + 1 * q.val = (Cert.Spec.rowStart i + q.val / 64) * 64 + q.val % 64; omega),
    hxw]

/-- The last chunk (field 38 against field 39 alone) has no broadcast and is flattened from `[32, 1, 64]`:
    at `(r, q)` it is `xw[r, i, q] * x[r, j, q]`. -/
theorem chunk_last_apply (i j : Nat) (hi : i < 40) (hj : j < 40)
    (x0 xw : (⟨3, ![32, 40, 64]⟩ : Shape).Idx → EReal)
    (h1 : (⟨3, ![32, 40, 64]⟩ : Shape).Slices ![0, i, 0] ⟨3, ![32, 1, 64]⟩)
    (h2 : (⟨3, ![32, 1, 64]⟩ : Shape).ShapeCasts ⟨2, ![32, 64]⟩)
    (h3 : (⟨2, ![32, 64]⟩ : Shape).ShapeCasts ⟨3, ![32, 1, 64]⟩)
    (h5 : (⟨3, ![32, 40, 64]⟩ : Shape).Slices ![0, j, 0] ⟨3, ![32, 1, 64]⟩)
    (h6 : (⟨3, ![32, 1, 64]⟩ : Shape).ShapeCasts ⟨2, ![32, 64]⟩) (r : Fin 32) (q : Fin 64) :
    shapeCast ⟨2, ![32, 64]⟩ (mulf (F := Ideal) (φ := .f32)
        (shapeCast ⟨3, ![32, 1, 64]⟩ (shapeCast ⟨2, ![32, 64]⟩
          (extractStridedSlice ⟨3, ![32, 1, 64]⟩ ![0, i, 0] xw h1) h2) h3)
        (extractStridedSlice ⟨3, ![32, 1, 64]⟩ ![0, j, 0] x0 h5)) h6 (ix2 r q)
      = xw (ix3 r ⟨i, hi⟩ q) * x0 (ix3 r ⟨j, hj⟩ q) := by
  rw [shapeCast_apply _ h6 (ix2 r q) (ix3 r (0 : Fin 1) q) (by
    rw [Shape.rowMajor_val_three, Shape.rowMajor_val_two]
    show (r.val * 1 + 0) * 64 + q.val = r.val * 64 + q.val
    omega), mulf_apply]
  rw [shapeCast_apply _ h3 (ix3 r (0 : Fin 1) q) (ix2 r q) (by
    rw [Shape.rowMajor_val_three, Shape.rowMajor_val_two]
    show r.val * 64 + q.val = (r.val * 1 + 0) * 64 + q.val
    omega)]
  rw [shapeCast_apply _ h2 (ix2 r q) (ix3 r (0 : Fin 1) q) (by
    rw [Shape.rowMajor_val_three, Shape.rowMajor_val_two]
    show (r.val * 1 + 0) * 64 + q.val = r.val * 64 + q.val
    omega)]
  rw [extractStridedSlice_apply _ xw h1 (ix3 r (0 : Fin 1) q) (ix3 r ⟨i, hi⟩ q) (fun a => by
    match a with
    | ⟨0, _⟩ => exact (Nat.zero_add _).symm
    | ⟨1, _⟩ => rfl
    | ⟨2, _⟩ => exact (Nat.zero_add _).symm),
    extractStridedSlice_apply _ x0 h5 (ix3 r (0 : Fin 1) q) (ix3 r ⟨j, hj⟩ q) (fun a => by
    match a with
    | ⟨0, _⟩ => exact (Nat.zero_add _).symm
    | ⟨1, _⟩ => rfl
    | ⟨2, _⟩ => exact (Nat.zero_add _).symm)]

/-- THE LAST CHUNK IN PLACE, at column offset `off = 64 · rowStart 38`. -/
theorem piece_last (off : Nat) (hoff : off = Cert.Spec.rowStart 38 * 64)
    (x0 xw : (⟨3, ![32, 40, 64]⟩ : Shape).Idx → EReal) (x1 : (⟨2, ![64, 64]⟩ : Shape).Idx → EReal)
    (hxw : ∀ (r : Fin 32) (f : Fin 40) (e : Fin 64), xw (ix3 r f e) = ∑ k : Fin 64, x0 (ix3 r f k) * x1 (ix2 k e))
    (h1 : (⟨3, ![32, 40, 64]⟩ : Shape).Slices ![0, 38, 0] ⟨3, ![32, 1, 64]⟩)
    (h2 : (⟨3, ![32, 1, 64]⟩ : Shape).ShapeCasts ⟨2, ![32, 64]⟩)
    (h3 : (⟨2, ![32, 64]⟩ : Shape).ShapeCasts ⟨3, ![32, 1, 64]⟩)
    (h5 : (⟨3, ![32, 40, 64]⟩ : Shape).Slices ![0, 39, 0] ⟨3, ![32, 1, 64]⟩)
    (h6 : (⟨3, ![32, 1, 64]⟩ : Shape).ShapeCasts ⟨2, ![32, 64]⟩)
    (inb : ∀ a, (![0, off] : Fin 2 → Nat) a + (![32, 64] : Fin 2 → Nat) a ≤ (⟨2, ![32, 49920]⟩ : Shape).size a)
    (x : (⟨2, ![32, 64]⟩ : Shape).Idx) :
    shapeCast ⟨2, ![32, 64]⟩ (mulf (F := Ideal) (φ := .f32)
        (shapeCast ⟨3, ![32, 1, 64]⟩ (shapeCast ⟨2, ![32, 64]⟩
          (extractStridedSlice ⟨3, ![32, 1, 64]⟩ ![0, 38, 0] xw h1) h2) h3)
        (extractStridedSlice ⟨3, ![32, 1, 64]⟩ ![0, 39, 0] x0 h5)) h6 x
      = Cert.Spec.Gblk x0 x1 ((Rect.unit (s := ⟨2, ![32, 49920]⟩) ![0, off] ![32, 64] inb).emb x) := by
  obtain ⟨r, q, rfl⟩ : ∃ (r : Fin 32) (q : Fin 64), x = ix2 r q := ⟨x 0, x 1, eq_ix2 x⟩
  have hq := q.isLt
  rw [chunk_last_apply 38 39 (by norm_num) (by norm_num) x0 xw h1 h2 h3 h5 h6 r q,
    Gblk_at x0 x1 _ r 38 0 q (by norm_num) (by norm_num)
      (by show 0 + 1 * r.val = r.val; omega)
      (by show off + 1 * q.val = (Cert.Spec.rowStart 38 + 0) * 64 + q.val; omega),
    hxw]

end Cert.KerChunk

end
-- ==== Proof.KerPieces.lean ====
/-
  The kernel's output block is the specification's block.

  The body stores 39 chunks into its `[32, 49920]` output block, one per field `i = 0, …, 38`: chunk `i` holds the
  products of `xw[·, i, ·]` with the fields `i + 1, …, 39` of the input block and sits at column offset
  `64 · rowStart i`.  Each chunk agrees with the one function `Gblk` of the block index where it is stored, the
  chunks cover the block, so what the block holds after the body is `Gblk`.
-/
import proofs.«402416_j19679540150798_3_alg».proof.Proof.Gen.KernelIdeal.Frame
import proofs.«402416_j19679540150798_3_alg».proof.Proof.KerMatmul
import proofs.«402416_j19679540150798_3_alg».proof.Proof.KerChunk
import proofs.«402416_j19679540150798_3_alg».proof.Proof.Spec

set_option maxRecDepth 16384

noncomputable section

namespace Cert.KerPieces

open Cert.KernelIdeal Cert.KernelIdeal.Gen Idealize.ShloMosaic Idealize.ShloMosaic.TcCoe Idealize.ShloMosaic.ValueIdx Idealize.SL.Sem
open Idealize.ShloMosaic.Tactic

theorem hz3 : (![0, 0, 0] : Fin 3 → Nat) = fun _ => 0 := funext fun a => by fin_cases a <;> rfl
theorem hz2 : (![0, 0] : Fin 2 → Nat) = fun _ => 0 := funext fun a => by fin_cases a <;> rfl

/-- Every chunk the body stores is the block's specification where it is stored: the chunks listed from the
    last stored (field 38, one partner) back to the first (field 0, 39 partners); chunk `i` has `39 - i` partner
    fields, `64 · (39 - i)` columns, and starts at column `64 · rowStart i`. -/
theorem pieces_spec (c : Dev nD) (i : grid0.Coords) (arg1 : Memref sig .tc .vmem S32x40x64 .f32) (harg1 : arg1.IsWhole)
    (arg2 : Memref sig .tc .vmem S64x64 .f32) (harg2 : arg2.IsWhole) (arg3 : Memref sig .tc .vmem S32x49920 .f32) (harg3 : arg3.IsWhole)
    (x0 : Vec Ideal S32x40x64 .f32) (x1 : Vec Ideal S64x64 .f32) :
    ∀ p ∈ (kernelRun0_A (F := Ideal) c i arg1 harg1 arg2 harg2 arg3 harg3 x0 x1).1,
      ∀ x : p.1.shape.Idx, p.2 x = Cert.Spec.Gblk x0 x1 (p.1.emb x) := by
  have hxw := Cert.KerMatmul.xw_apply x0 x1
  unfold kernelRun0_A
  dsimp only
  sl_unfold_run_names
  simp only [View.readAt_eq_ld, harg1.read_unread, harg2.read_unread, View.ld_unit_zero (S := S32x40x64) hz3,
    View.ld_unit_zero (S := S64x64) hz2]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact Cert.KerChunk.piece_last 49856 (by decide) x0 (k0_pay3 x0 x1) x1 hxw (by decide) (by decide) (by decide) (by decide) (by decide) (by decide)
  · exact Cert.KerChunk.piece 37 38 2 128 49728 rfl rfl rfl (by decide) x0 (k0_pay3 x0 x1) x1 hxw (by decide) (by decide) (by decide) (by decide) (by decide) (by decide) (by decide)
  · exact Cert.KerChunk.piece 36 37 3 192 49536 rfl rfl rfl (by decide) x0 (k0_pay3 x0 x1) x1 hxw (by decide) (by decide) (by decide) (by decide) (by decide) (by decide) (by decide)
  · exact Cert.KerChunk.piece 35 36 4 256 49280 rfl rfl rfl (by decide) x0 (k0_pay3 x0 x1) x1 hxw (by decide) (by decide) (by decide) (by decide) (by decide) (by decide) (by decide)
  · exact Cert.KerChunk.piece 34 35 5 320 48960 rfl rfl rfl (by decide) x0 (k0_pay3 x0 x1) x1 hxw (by decide) (by decide) (by decide) (by decide) (by decide) (by decide) (by decide)
  · exact Cert.KerChunk.piece 33 34 6 384 48576 rfl rfl rfl (by decide) x0 (k0_pay3 x0 x1) x1 hxw (by decide) (by decide) (by decide) (by decide) (by decide) (by decide) (by decide)
  · exact Cert.KerChunk.piece 32 33 7 448 48128 rfl rfl rfl (by decide) x0 (k0_pay3 x0 x1) x1 hxw (by decide) (by decide) (by decide) (by decide) (by decide) (by decide) (by decide)
  · exact Cert.KerChunk.piece 31 32 8 512 47616 rfl rfl rfl (by decide) x0 (k0_pay3 x0 x1) x1 hxw (by decide) (by decide) (by decide) (by decide) (by decide) (by decide) (by decide)
  · exact Cert.KerChunk.piece 30 31 9 576 47040 rfl rfl rfl (by decide) x0 (k0_pay3 x0 x1) x1 hxw (by decide) (by decide) (by decide) (by decide) (by decide) (by decide) (by decide)
  · exact Cert.KerChunk.piece 29 30 10 640 46400 rfl rfl rfl (by decide) x0 (k0_pay3 x0 x1) x1 hxw (by decide) (by decide) (by decide) (by decide) (by decide) (by decide) (by decide)
  · exact Cert.KerChunk.piece 28 29 11 704 45696 rfl rfl rfl (by decide) x0 (k0_pay3 x0 x1) x1 hxw (by decide) (by decide) (by decide) (by decide) (by decide) (by decide) (by decide)
  · exact Cert.KerChunk.piece 27 28 12 768 44928 rfl rfl rfl (by decide) x0 (k0_pay3 x0 x1) x1 hxw (by decide) (by decide) (by decide) (by decide) (by decide) (by decide) (by decide)
  · exact Cert.KerChunk.piece 26 27 13 832 44096 rfl rfl rfl (by decide) x0 (k0_pay3 x0 x1) x1 hxw (by decide) (by decide) (by decide) (by decide) (by decide) (by decide) (by decide)
  · exact Cert.KerChunk.piece 25 26 14 896 43200 rfl rfl rfl (by decide) x0 (k0_pay3 x0 x1) x1 hxw (by decide) (by decide) (by decide) (by decide) (by decide) (by decide) (by decide)
  · exact Cert.KerChunk.piece 24 25 15 960 42240 rfl rfl rfl (by decide) x0 (k0_pay3 x0 x1) x1 hxw (by decide) (by decide) (by decide) (by decide) (by decide) (by decide) (by decide)
  · exact Cert.KerChunk.piece 23 24 16 1024 41216 rfl rfl rfl (by decide) x0 (k0_pay3 x0 x1) x1 hxw (by decide) (by decide) (by decide) (by decide) (by decide) (by decide) (by decide)
  · exact Cert.KerChunk.piece 22 23 17 1088 40128 rfl rfl rfl (by decide) x0 (k0_pay3 x0 x1) x1 hxw (by decide) (by decide) (by decide) (by decide) (by decide) (by decide) (by decide)
  · exact Cert.KerChunk.piece 21 22 18 1152 38976 rfl rfl rfl (by decide) x0 (k0_pay3 x0 x1) x1 hxw (by decide) (by decide) (by decide) (by decide) (by decide) (by decide) (by decide)
  · exact Cert.KerChunk.piece 20 21 19 1216 37760 rfl rfl rfl (by decide) x0 (k0_pay3 x0 x1) x1 hxw (by decide) (by decide) (by decide) (by decide) (by decide) (by decide) (by decide)
  · exact Cert.KerChunk.piece 19 20 20 1280 36480 rfl rfl rfl (by decide) x0 (k0_pay3 x0 x1) x1 hxw (by decide) (by decide) (by decide) (by decide) (by decide) (by decide) (by decide)
  · exact Cert.KerChunk.piece 18 19 21 1344 35136 rfl rfl rfl (by decide) x0 (k0_pay3 x0 x1) x1 hxw (by decide) (by decide) (by decide) (by decide) (by decide) (by decide) (by decide)
  · exact Cert.KerChunk.piece 17 18 22 1408 33728 rfl rfl rfl (by decide) x0 (k0_pay3 x0 x1) x1 hxw (by decide) (by decide) (by decide) (by decide) (by decide) (by decide) (by decide)
  · exact Cert.KerChunk.piece 16 17 23 1472 32256 rfl rfl rfl (by decide) x0 (k0_pay3 x0 x1) x1 hxw (by decide) (by decide) (by decide) (by decide) (by decide) (by decide) (by decide)
  · exact Cert.KerChunk.piece 15 16 24 1536 30720 rfl rfl rfl (by decide) x0 (k0_pay3 x0 x1) x1 hxw (by decide) (by decide) (by decide) (by decide) (by decide) (by decide) (by decide)
  · exact Cert.KerChunk.piece 14 15 25 1600 29120 rfl rfl rfl (by decide) x0 (k0_pay3 x0 x1) x1 hxw (by decide) (by decide) (by decide) (by decide) (by decide) (by decide) (by decide)
  · exact Cert.KerChunk.piece 13 14 26 1664 27456 rfl rfl rfl (by decide) x0 (k0_pay3 x0 x1) x1 hxw (by decide) (by decide) (by decide) (by decide) (by decide) (by decide) (by decide)
  · exact Cert.KerChunk.piece 12 13 27 1728 25728 rfl rfl rfl (by decide) x0 (k0_pay3 x0 x1) x1 hxw (by decide) (by decide) (by decide) (by decide) (by decide) (by decide) (by decide)
  · exact Cert.KerChunk.piece 11 12 28 1792 23936 rfl rfl rfl (by decide) x0 (k0_pay3 x0 x1) x1 hxw (by decide) (by decide) (by decide) (by decide) (by decide) (by decide) (by decide)
  · exact Cert.KerChunk.piece 10 11 29 1856 22080 rfl rfl rfl (by decide) x0 (k0_pay3 x0 x1) x1 hxw (by decide) (by decide) (by decide) (by decide) (by decide) (by decide) (by decide)
  · exact Cert.KerChunk.piece 9 10 30 1920 20160 rfl rfl rfl (by decide) x0 (k0_pay3 x0 x1) x1 hxw (by decide) (by decide) (by decide) (by decide) (by decide) (by decide) (by decide)
  · exact Cert.KerChunk.piece 8 9 31 1984 18176 rfl rfl rfl (by decide) x0 (k0_pay3 x0 x1) x1 hxw (by decide) (by decide) (by decide) (by decide) (by decide) (by decide) (by decide)
  · exact Cert.KerChunk.piece 7 8 32 2048 16128 rfl rfl rfl (by decide) x0 (k0_pay3 x0 x1) x1 hxw (by decide) (by decide) (by decide) (by decide) (by decide) (by decide) (by decide)
  · exact Cert.KerChunk.piece 6 7 33 2112 14016 rfl rfl rfl (by decide) x0 (k0_pay3 x0 x1) x1 hxw (by decide) (by decide) (by decide) (by decide) (by decide) (by decide) (by decide)
  · exact Cert.KerChunk.piece 5 6 34 2176 11840 rfl rfl rfl (by decide) x0 (k0_pay3 x0 x1) x1 hxw (by decide) (by decide) (by decide) (by decide) (by decide) (by decide) (by decide)
  · exact Cert.KerChunk.piece 4 5 35 2240 9600 rfl rfl rfl (by decide) x0 (k0_pay3 x0 x1) x1 hxw (by decide) (by decide) (by decide) (by decide) (by decide) (by decide) (by decide)
  · exact Cert.KerChunk.piece 3 4 36 2304 7296 rfl rfl rfl (by decide) x0 (k0_pay3 x0 x1) x1 hxw (by decide) (by decide) (by decide) (by decide) (by decide) (by decide) (by decide)
  · exact Cert.KerChunk.piece 2 3 37 2368 4928 rfl rfl rfl (by decide) x0 (k0_pay3 x0 x1) x1 hxw (by decide) (by decide) (by decide) (by decide) (by decide) (by decide) (by decide)
  · exact Cert.KerChunk.piece 1 2 38 2432 2496 rfl rfl rfl (by decide) x0 (k0_pay3 x0 x1) x1 hxw (by decide) (by decide) (by decide) (by decide) (by decide) (by decide) (by decide)
  · exact Cert.KerChunk.piece 0 1 39 2496 0 rfl rfl rfl (by decide) x0 (k0_pay3 x0 x1) x1 hxw (by decide) (by decide) (by decide) (by decide) (by decide) (by decide) (by decide)

/-- What the body leaves in the output block is the specification's block of its input block and `w`. -/
theorem out_block_eq (c : Dev nD) (i : grid0.Coords) (arg1 : Memref sig .tc .vmem S32x40x64 .f32) (harg1 : arg1.IsWhole)
    (arg2 : Memref sig .tc .vmem S64x64 .f32) (harg2 : arg2.IsWhole) (arg3 : Memref sig .tc .vmem S32x49920 .f32) (harg3 : arg3.IsWhole)
    (x0 : Vec Ideal S32x40x64 .f32) (x1 : Vec Ideal S64x64 .f32) :
    out0_A_2 (F := Ideal) c i arg1 harg1 arg2 harg2 arg3 harg3 x0 x1 = Cert.Spec.Gblk x0 x1 := by
  unfold out0_A_2
  rw [View.read_writes_eq_canon _ _ _ (cover0_A_2 c i arg1 harg1 arg2 harg2 arg3 harg3 x0 x1)]
  funext y
  exact View.canon_apply_of_pieces (Cert.Spec.Gblk x0 x1) _
    (pieces_spec c i arg1 harg1 arg2 harg2 arg3 harg3 x0 x1) y
    (cover0_A_2 c i arg1 harg1 arg2 harg2 arg3 harg3 x0 x1 y)

end Cert.KerPieces

end
-- ==== Proof.KerValue.lean ====
/-
  From the kernel's output block to its whole output array, and the kernel's run.

  The grid has 64 points. At point `t` the input window holds batch rows `32 * t, …, 32 * t + 31` of
  `x : [2048, 40, 64]`, the weight window holds all of `w : [64, 64]`, and the output window is rows
  `32 * t, …, 32 * t + 31` of the result `[2048, 49920]`. The body leaves in the output block the block formula
  `Gblk` of the input block and of `w`; since `Gblk` and `G` are the same sum-times-factor with the batch row counted
  inside the block or inside the array, what point `t` writes back is block `t` of `G x w`. The 64 blocks cover the
  array (batch row `b` lies in block `b / 32`), so the array ends at `G x w`.
-/
import proofs.«402416_j19679540150798_3_alg».proof.Proof.Gen.KernelIdeal.Value
import proofs.«402416_j19679540150798_3_alg».proof.Proof.KerPieces
import proofs.«402416_j19679540150798_3_alg».proof.Proof.Spec
import Idealize.ShloMosaic.Lib.Pipeline.Value

noncomputable section

namespace Cert.KerValue

open Cert.KernelIdeal Cert.KernelIdeal.Gen Cert.KernelIdeal.Value Idealize.ShloMosaic Idealize.ShloMosaic.TcCoe Idealize.ShloMosaic.ValueIdx Idealize.SL.Sem
open Idealize.ShloMosaic.Pipeline (Dat)

/-- The whole input of 40 field embeddings per batch row, the weight matrix, one block of 32 batch rows of the
    input, the whole result and one block of 32 of its rows, as functions of their indices. -/
abbrev XArr : Type := (⟨3, ![2048, 40, 64]⟩ : Shape).Idx → EReal
abbrev WArr : Type := (⟨2, ![64, 64]⟩ : Shape).Idx → EReal
abbrev XBlk : Type := (⟨3, ![32, 40, 64]⟩ : Shape).Idx → EReal

/-- The block index maps, decided once over the 64 grid points: at point `t` the input's block is block `t` of
    the batch axis (and the whole of the other two axes), the weight's block is the whole matrix, the result's
    block is block `t` of the batch axis and the whole column axis. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- If the block `x0` holds rows `32 * T, …, 32 * T + 31` of `x`, then row `r` of the block formula is row
    `32 * T + r` of the whole formula: both are the same sum times the same factor. -/
theorem Gblk_row (x : XArr) (w : WArr) (x0 : XBlk) (T : Nat)
    (hx : ∀ (r : Fin 32) (b : Fin 2048), b.val = 32 * T + r.val → ∀ (f : Fin 40) (k : Fin 64), x0 (ix3 r f k) = x (ix3 b f k))
    (r : Fin 32) (b : Fin 2048) (hb : b.val = 32 * T + r.val) (col : Fin 49920) :
    Cert.Spec.Gblk x0 w (ix2 r col) = Cert.Spec.G x w (ix2 b col) := by
  rw [Cert.Spec.Gblk_ix2, Cert.Spec.G_ix2']
  simp only [hx r b hb]

section Blocks

variable (m : (ℓ : Loc nD τ sig) → Buf (Elt Ideal) ℓ) (ρ : Dev nD → PrngReg)

/-- The input window's block at point `t` is rows `32 * t, …, 32 * t + 31` of the argument, all fields and lanes. -/
theorem xblk_apply (c : Dev nD) (t : Fin cfg0.N) (r : Fin 32) (b : Fin 2048) (hb : b.val = 32 * t.val + r.val)
    (f : Fin 40) (k : Fin 64) :
    (iblk m c 0 t : XBlk) (ix3 r f k) = (V m c main_arg0 : XArr) (ix3 b f k) := by
  obtain ⟨e0, e1, e2, -⟩ := index_facts t
  unfold iblk
  rw [View.read_apply]
  show V m c main_arg0 _ = V m c main_arg0 _
  congr 1
  funext a
  apply Fin.ext
  match a with
  | ⟨0, _⟩ => show win0_0.index t (0 : Fin 3) * 32 + 1 * r.val = b.val; omega
  | ⟨1, _⟩ => show win0_0.index t (1 : Fin 3) * 40 + 1 * f.val = f.val; omega
  | ⟨2, _⟩ => show win0_0.index t (2 : Fin 3) * 64 + 1 * k.val = k.val; omega

/-- The weight window's block at every point is the whole weight matrix. -/
theorem wblk_eq (c : Dev nD) (t : Fin cfg0.N) : (iblk m c 1 t : WArr) = (V m c main_arg1 : WArr) := by
  obtain ⟨-, -, -, e0, e1, -⟩ := index_facts t
  funext j
  unfold iblk
  rw [View.read_apply]
  show V m c main_arg1 _ = V m c main_arg1 _
  congr 1
  funext a
  apply Fin.ext
  match a with
  | ⟨0, _⟩ => show win0_1.index t (0 : Fin 2) * 64 + 1 * (j 0).val = (j 0).val; omega
  | ⟨1, _⟩ => show win0_1.index t (1 : Fin 2) * 64 + 1 * (j 1).val = (j 1).val; omega

/-- What grid point `t` writes back is block `t` of the whole result `G` of the two arguments: at the block's
    index `y` the block formula reads row `y 0` of the input block, which is row `32 * t + y 0` of the input, and
    the block's place in the array is row `32 * t + y 0`, column `y 1`. -/
theorem flushed_eq (c : Dev nD) (t : Fin cfg0.N) :
    (dats m 0 c).flushed 2 t
      = ((cfg0.win 2).blk t).view.read (Elt Ideal) (Cert.Spec.G (V m c main_arg0) (V m c main_arg1)) := by
  rw [Value.flushed2_A, Cert.KerPieces.out_block_eq]
  obtain ⟨-, -, -, -, -, e0, e1⟩ := index_facts t
  funext y
  rw [View.read_apply]
  have hy0 : (y 0).val < 32 := (y 0).isLt
  have hy1 : (y 1).val < 49920 := (y 1).isLt
  have hemb : ((cfg0.win 2).blk t).view.emb y
      = (ix2 (⟨32 * t.val + (y 0).val, by have := t.isLt; have : cfg0.N = 64 := rfl; omega⟩ : Fin 2048)
          (⟨(y 1).val, hy1⟩ : Fin 49920) : (⟨2, ![2048, 49920]⟩ : Shape).Idx) := by
    funext a
    apply Fin.ext
    match a with
    | ⟨0, _⟩ => show win0_2.index t (0 : Fin 2) * 32 + 1 * (y 0).val = 32 * t.val + (y 0).val; omega
    | ⟨1, _⟩ => show win0_2.index t (1 : Fin 2) * 49920 + 1 * (y 1).val = (y 1).val; omega
  rw [hemb]
  show Cert.Spec.Gblk (iblk m c 0 t : XBlk) (iblk m c 1 t : WArr) (ix2 (⟨(y 0).val, hy0⟩ : Fin 32) (⟨(y 1).val, hy1⟩ : Fin 49920)) = _
  rw [wblk_eq m c t]
  exact Gblk_row (V m c main_arg0) (V m c main_arg1) (iblk m c 0 t) t.val
    (fun r b hb f k => xblk_apply m c t r b hb f k) _ _ rfl _

/-- An index of the result array is in point `t`'s block iff each coordinate is in the block's range on its axis. -/
theorem mem_blk (t : Fin cfg0.N) (i : S2048x49920.Idx) :
    i ∈ ((cfg0.win 2).blk t).view.set ↔ ∀ a : Fin 2, win0_2.index t a * S32x49920.size a ≤ (i a).val
      ∧ (i a).val < win0_2.index t a * S32x49920.size a + S32x49920.size a := by
  show i ∈ ((View.whole main_v0).slice (win0_2.rect t)).set ↔ _
  rw [View.set_slice_whole, Rect.mem_set_unit]
  exact Iff.rfl

/-- Every index of the result array is in some point's block: batch row `b` lies in block `b / 32`. -/
theorem cover (i : S2048x49920.Idx) :
    ∃ t : Fin cfg0.N, (cfg0.win 2).flush t = true ∧ i ∈ ((cfg0.win 2).blk t).view.set := by
  have hi0 : (i 0).val < 2048 := (i 0).isLt
  have hi1 : (i 1).val < 49920 := (i 1).isLt
  have hN : cfg0.N = 64 := rfl
  let t : Fin cfg0.N := ⟨(i 0).val / 32, by omega⟩
  have ht : t.val = (i 0).val / 32 := rfl
  obtain ⟨-, -, -, -, -, e0, e1⟩ := index_facts t
  refine ⟨t, flush0_2 t, ?_⟩
  rw [mem_blk]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 49920 ≤ (i 1).val ∧ (i 1).val < win0_2.index t (1 : Fin 2) * 49920 + 49920
    omega

/-- So the result array after the run is `G` of the two arguments. -/
theorem final (c : Dev nD) :
    (dats m 0 c).arrAt 2 cfg0.N
      = Cert.Spec.G (m ((c : Thread nD τ).loc main_arg0)) (m ((c : Thread nD τ).loc main_arg1)) := by
  rw [← V_main_arg0 m c, ← V_main_arg1 m c]
  exact (dats m 0 c).arrAt_eq_of_cover 2 (Cert.Spec.G (V m c main_arg0) (V m c main_arg1))
    (fun t _ => flushed_eq m c t) cover

end Blocks

/-- The kernel's run: the result array ends at `G` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KerValue

end
-- ==== Proof.RefValue.lean ====
/-
  The reference program's value.

  The reference computes `xw = x · w` by one contraction over the last axis of `x`, gathers from `xw` the fields a first
  table of 780 words names and from `x` the fields a second table names, multiplies the two gathered arrays and
  flattens `[2048, 780, 64]` to `[2048, 49920]`. Run as a straight line of host operations it leaves the result buffer
  at one composed term of its two arguments (`refTerm`). Read at column `c` of row `b`, that term is lane `c % 64` of
  pair `c / 64`: the first table's word `p` is the smaller field of pair `p` and the second table's the larger one
  (both decided over the 780 entries), a gather reads the operand at the named field with row and lane unchanged, and
  over the extended reals the contraction is the sum `∑ k, x[b, f, k] · w[k, e]`. So the term is `Cert.Spec.G`.
-/
import proofs.«402416_j19679540150798_3_alg».proof.Proof.Gen.ReferenceIdeal
import proofs.«402416_j19679540150798_3_alg».proof.Proof.Spec
import Idealize.ShloMosaic.Lib.StableHlo.Run
import Idealize.ShloMosaic.PureOps.Ideal.Laws
import Idealize.ShloMosaic.Lib.ValueIdx
import Idealize.ShloMosaic.Lib.Pipeline.Value

noncomputable section

namespace Cert.RefValue

open Cert.ReferenceIdeal Cert.ReferenceIdeal.Gen Idealize.ShloMosaic Idealize.ShloMosaic.TcCoe Idealize.ShloMosaic.ValueIdx Idealize.SL.Sem Idealize.ShloMosaic.StableHlo

/-! ## The run

The reference is a straight line of 25 host operations. Listed in order, the run leaves every buffer at the fold of
the operations' results over the launch contents; the result buffer then holds the composed term `refTerm` of the two
arguments. -/

variable {F : FTy → Type} [FloatOps F]

/-- The start indices one gather reads, as a function of its table of 780 words: a negative entry is wrapped by
    adding 40 (none is), and the vector becomes a column. -/
def startIdx (tbl : Fin 780 → BitVec 32) : IVec S780x1 32 :=
  broadcastInDim S780x1 ![0] bcast_S780_S780x1_0
    (select (cmpi .slt (fun i => tbl (S780.rowMajor i)) (broadcastInDim S780 ![] bcast_S_S780 (constantI S_ 32 0#32)))
      (addi (fun i => tbl (S780.rowMajor i)) (broadcastInDim S780 ![] bcast_S_S780 (constantI S_ 32 40#32)))
      (fun i => tbl (S780.rowMajor i)))

/-- The reference's result as one term of its two arguments. -/
def refTerm (x : Vec F S2048x40x64 .f32) (w : Vec F S64x64 .f32) : Vec F S2048x49920 .f32 :=
  shapeCast S2048x49920
    (mulf
      (Host.gather gather_S2048x40x64_S780x1_S2048x780x64_02_1_n_n_1_1_2048164
        (Host.dotGeneral dot_S2048x40x64_S64x64_S2048x40x64_2_0_01_1_n_n none x w) (startIdx lit0))
      (Host.gather gather_S2048x40x64_S780x1_S2048x780x64_02_1_n_n_1_1_2048164 x (startIdx lit1)))
    shapeCasts_S2048x780x64_S2048x49920

/-- @main's 25 operations, in order. -/
abbrev ops : List (HloOp τ sig (Elt F)) :=
  [ nullary main_c (fun i => lit0 (S780.rowMajor i)),
    nullary main_c_0 (fun i => lit1 (S780.rowMajor i)),
    binary main_arg0 main_arg1 main_v0 ((fun l r => Host.dotGeneral dot_S2048x40x64_S64x64_S2048x40x64_2_0_01_1_n_n none l r) : (⟨S2048x40x64, .f32⟩ : BufTy).Contents (Elt F) → (⟨S64x64, .f32⟩ : BufTy).Contents (Elt F) → (⟨S2048x40x64, .f32⟩ : BufTy).Contents (Elt F)),
    nullary main_c_1 (constantI S_ 32 0#32),
    unary main_c_1 main_v1 (broadcastInDim S780 ![] bcast_S_S780 : (⟨S_, .i32⟩ : BufTy).Contents (Elt F) → (⟨S780, .i32⟩ : BufTy).Contents (Elt F)),
    binary main_c main_v1 main_v2 (cmpi .slt : (⟨S780, .i32⟩ : BufTy).Contents (Elt F) → (⟨S780, .i32⟩ : BufTy).Contents (Elt F) → (⟨S780, .i1⟩ : BufTy).Contents (Elt F)),
    nullary main_c_2 (constantI S_ 32 40#32),
    unary main_c_2 main_v3 (broadcastInDim S780 ![] bcast_S_S780 : (⟨S_, .i32⟩ : BufTy).Contents (Elt F) → (⟨S780, .i32⟩ : BufTy).Contents (Elt F)),
    binary main_c main_v3 main_v4 (addi : (⟨S780, .i32⟩ : BufTy).Contents (Elt F) → (⟨S780, .i32⟩ : BufTy).Contents (Elt F) → (⟨S780, .i32⟩ : BufTy).Contents (Elt F)),
    ternary main_v2 main_v4 main_c main_v5 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v5 main_v6 (broadcastInDim S780x1 ![0] bcast_S780_S780x1_0 : (⟨S780, .i32⟩ : BufTy).Contents (Elt F) → (⟨S780x1, .i32⟩ : BufTy).Contents (Elt F)),
    binary main_v0 main_v6 main_v7 ((fun x i => Host.gather gather_S2048x40x64_S780x1_S2048x780x64_02_1_n_n_1_1_2048164 x i) : (⟨S2048x40x64, .f32⟩ : BufTy).Contents (Elt F) → (⟨S780x1, .i32⟩ : BufTy).Contents (Elt F) → (⟨S2048x780x64, .f32⟩ : BufTy).Contents (Elt F)),
    nullary main_c_3 (constantI S_ 32 0#32),
    unary main_c_3 main_v8 (broadcastInDim S780 ![] bcast_S_S780 : (⟨S_, .i32⟩ : BufTy).Contents (Elt F) → (⟨S780, .i32⟩ : BufTy).Contents (Elt F)),
    binary main_c_0 main_v8 main_v9 (cmpi .slt : (⟨S780, .i32⟩ : BufTy).Contents (Elt F) → (⟨S780, .i32⟩ : BufTy).Contents (Elt F) → (⟨S780, .i1⟩ : BufTy).Contents (Elt F)),
    nullary main_c_4 (constantI S_ 32 40#32),
    unary main_c_4 main_v10 (broadcastInDim S780 ![] bcast_S_S780 : (⟨S_, .i32⟩ : BufTy).Contents (Elt F) → (⟨S780, .i32⟩ : BufTy).Contents (Elt F)),
    binary main_c_0 main_v10 main_v11 (addi : (⟨S780, .i32⟩ : BufTy).Contents (Elt F) → (⟨S780, .i32⟩ : BufTy).Contents (Elt F) → (⟨S780, .i32⟩ : BufTy).Contents (Elt F)),
    ternary main_v9 main_v11 main_c_0 main_v12 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v12 main_v13 (broadcastInDim S780x1 ![0] bcast_S780_S780x1_0 : (⟨S780, .i32⟩ : BufTy).Contents (Elt F) → (⟨S780x1, .i32⟩ : BufTy).Contents (Elt F)),
    binary main_arg0 main_v13 main_v14 ((fun x i => Host.gather gather_S2048x40x64_S780x1_S2048x780x64_02_1_n_n_1_1_2048164 x i) : (⟨S2048x40x64, .f32⟩ : BufTy).Contents (Elt F) → (⟨S780x1, .i32⟩ : BufTy).Contents (Elt F) → (⟨S2048x780x64, .f32⟩ : BufTy).Contents (Elt F)),
    binary main_v7 main_v14 main_v15 (mulf : (⟨S2048x780x64, .f32⟩ : BufTy).Contents (Elt F) → (⟨S2048x780x64, .f32⟩ : BufTy).Contents (Elt F) → (⟨S2048x780x64, .f32⟩ : BufTy).Contents (Elt F)),
    reshape main_v15 main_v16 rfl shapeCasts_S2048x780x64_S2048x49920 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub ..,
   nullary_bufs_sub .., unary_bufs_sub .., binary_bufs_sub .., ternary_bufs_sub .., unary_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., binary_bufs_sub .., reshape_bufs_sub ..⟩

/-- Every weakly fair execution of the reference terminates with the result buffer at `refTerm` of the two arguments'
    launch contents, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (by after_results_simp; rfl),
      (h c main_arg0).trans (by after_results_simp),
      (h c main_arg1).trans (by after_results_simp)⟩)
    (run_seq scopedRefs_eq scopedSems_eq defs main (fun _ => ops) main_eq (fun _ => ops_sub) m ρ)

/-! ## The two tables -/

/-- What a gather makes of one word of its table: wrapped if negative, read signed, clamped into the 40 fields. -/
def fieldOf (v : BitVec 32) : Nat :=
  min (Scalar.select (IntOp.cmpi .slt v 0#32) (IntOp.addi v 40#32) v).toInt.toNat 39

/-- The first table lists the smaller field of every pair. -/
theorem fieldOf_lit0 : ∀ p : Fin 780, fieldOf (lit0 p) = Cert.Spec.pairIn p.val := by decide +kernel

/-- The second table lists the larger field of every pair. -/
theorem fieldOf_lit1 : ∀ p : Fin 780, fieldOf (lit1 p) = Cert.Spec.pairJn p.val := by decide +kernel

/-! ## The operations read at an index -/

section Reads

variable {α : Type}

/-- `[a, b, c]` cast to `[a, n]` with `n = b · c` merges the two trailing axes: column `q · c + d` of row `p` is the
    array at `(p, q, d)`. -/
theorem shapeCast_mergeTail_apply {a b c n : ℕ} (x : (⟨3, ![a, b, c]⟩ : Shape).Idx → α)
    (h : (⟨3, ![a, b, c]⟩ : Shape).ShapeCasts ⟨2, ![a, n]⟩) (hn : n = b * c) (p : Fin a) (q : Fin b) (d : Fin c) (r : Fin n)
    (hr : r.val = q.val * c + d.val) :
    shapeCast ⟨2, ![a, n]⟩ x h (ix2 p r) = x (ix3 p q d) :=
  shapeCast_apply x h _ _ (by
    rw [Shape.rowMajor_val_three, Shape.rowMajor_val_two]
    show (p.val * b + q.val) * c + d.val = p.val * n + r.val
    rw [hr, hn]; ring)

/-- The start-indices index a gather of this shape reads for result index `(b, p, e)`: row `p` of the column. -/
theorem gather_siIdx (b : Fin 2048) (p : Fin 780) (e : Fin 64)
    (c : Fin gather_S2048x40x64_S780x1_S2048x780x64_02_1_n_n_1_1_2048164.startIndexMap.length) :
    gather_S2048x40x64_S780x1_S2048x780x64_02_1_n_n_1_1_2048164.siIdx (ix3 b p e) c = ix2 p (0 : Fin 1) := by
  funext a; refine Fin.ext ?_
  match a with
  | ⟨0, _⟩ => rfl
  | ⟨1, _⟩ =>
    have h1 : gather_S2048x40x64_S780x1_S2048x780x64_02_1_n_n_1_1_2048164.startIndexMap.length = 1 := rfl
    have hc := c.isLt
    show c.val = 0
    omega

/-- Operand axis 0 (the batch rows, taken whole): the result's batch row. -/
theorem gather_axis0 (idx : IVec S780x1 32) (b : Fin 2048) (p : Fin 780) (e : Fin 64) :
    (gather_S2048x40x64_S780x1_S2048x780x64_02_1_n_n_1_1_2048164.operandIdx (ix3 b p e) idx 0).val = b.val := by
  show gather_S2048x40x64_S780x1_S2048x780x64_02_1_n_n_1_1_2048164.start (ix3 b p e) idx 0
      + gather_S2048x40x64_S780x1_S2048x780x64_02_1_n_n_1_1_2048164.batchCoord (ix3 b p e) 0
      + gather_S2048x40x64_S780x1_S2048x780x64_02_1_n_n_1_1_2048164.offCoord (ix3 b p e) 0 = _
  rw [GatherDims.batchCoord_eq_zero _ _ _ List.not_mem_nil, Nat.add_zero]
  unfold GatherDims.start GatherDims.offCoord
  rw [dif_neg (by decide), dif_pos (by decide), Nat.zero_add]
  rfl

/-- Operand axis 1 (the fields, one taken): the start index of row `p`, read signed and clamped. -/
theorem gather_axis1 (idx : IVec S780x1 32) (b : Fin 2048) (p : Fin 780) (e : Fin 64) :
    (gather_S2048x40x64_S780x1_S2048x780x64_02_1_n_n_1_1_2048164.operandIdx (ix3 b p e) idx 1).val
      = min (idx (ix2 p (0 : Fin 1))).toInt.toNat 39 := by
  show gather_S2048x40x64_S780x1_S2048x780x64_02_1_n_n_1_1_2048164.start (ix3 b p e) idx 1
      + gather_S2048x40x64_S780x1_S2048x780x64_02_1_n_n_1_1_2048164.batchCoord (ix3 b p e) 1
      + gather_S2048x40x64_S780x1_S2048x780x64_02_1_n_n_1_1_2048164.offCoord (ix3 b p e) 1 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (by decide), gather_siIdx]
  rfl

/-- Operand axis 2 (the lanes, taken whole): the result's lane. -/
theorem gather_axis2 (idx : IVec S780x1 32) (b : Fin 2048) (p : Fin 780) (e : Fin 64) :
    (gather_S2048x40x64_S780x1_S2048x780x64_02_1_n_n_1_1_2048164.operandIdx (ix3 b p e) idx 2).val = e.val := by
  show gather_S2048x40x64_S780x1_S2048x780x64_02_1_n_n_1_1_2048164.start (ix3 b p e) idx 2
      + gather_S2048x40x64_S780x1_S2048x780x64_02_1_n_n_1_1_2048164.batchCoord (ix3 b p e) 2
      + gather_S2048x40x64_S780x1_S2048x780x64_02_1_n_n_1_1_2048164.offCoord (ix3 b p e) 2 = _
  rw [GatherDims.batchCoord_eq_zero _ _ _ List.not_mem_nil, Nat.add_zero]
  unfold GatherDims.start GatherDims.offCoord
  rw [dif_neg (by decide), dif_pos (by decide), Nat.zero_add]
  rfl

/-- The gather along the field axis, read at `(b, p, e)`: the operand at batch row `b`, lane `e`, and the field the
    start index of row `p` names, read signed and clamped into the 40 fields. -/
theorem gather_apply (x : S2048x40x64.Idx → α) (idx : IVec S780x1 32) (b : Fin 2048) (p : Fin 780) (e : Fin 64) :
    Host.gather gather_S2048x40x64_S780x1_S2048x780x64_02_1_n_n_1_1_2048164 x idx (ix3 b p e)
      = x (ix3 b ⟨min (idx (ix2 p (0 : Fin 1))).toInt.toNat 39, by omega⟩ e) := by
  unfold Host.gather
  congr 1
  funext a
  refine Fin.ext ?_
  match a with
  | ⟨0, _⟩ => exact gather_axis0 idx b p e
  | ⟨1, _⟩ => exact gather_axis1 idx b p e
  | ⟨2, _⟩ => exact gather_axis2 idx b p e

end Reads

/-! ## The contraction read at an index -/

section Dot

/-- Left operand, axis 0: the result's batch row. -/
theorem lhs_0 (i : S2048x40x64.Idx) (q : dot_S2048x40x64_S64x64_S2048x40x64_2_0_01_1_n_n.contr.Idx) :
    (dot_S2048x40x64_S64x64_S2048x40x64_2_0_01_1_n_n.lhsIdx i q 0).val = (i 0).val := by
  unfold DotDims.lhsIdx
  rw [dif_neg (show ¬(0 : Fin S2048x40x64.rank) ∈ dot_S2048x40x64_S64x64_S2048x40x64_2_0_01_1_n_n.lhsBatch by decide),
    dif_pos (show (0 : Fin S2048x40x64.rank) ∈ dot_S2048x40x64_S64x64_S2048x40x64_2_0_01_1_n_n.lhsNonContracting by decide)]
  rfl

/-- Left operand, axis 1: the result's field. -/
theorem lhs_1 (i : S2048x40x64.Idx) (q : dot_S2048x40x64_S64x64_S2048x40x64_2_0_01_1_n_n.contr.Idx) :
    (dot_S2048x40x64_S64x64_S2048x40x64_2_0_01_1_n_n.lhsIdx i q 1).val = (i 1).val := by
  unfold DotDims.lhsIdx
  rw [dif_neg (show ¬(1 : Fin S2048x40x64.rank) ∈ dot_S2048x40x64_S64x64_S2048x40x64_2_0_01_1_n_n.lhsBatch by decide),
    dif_pos (show (1 : Fin S2048x40x64.rank) ∈ dot_S2048x40x64_S64x64_S2048x40x64_2_0_01_1_n_n.lhsNonContracting by decide)]
  rfl

/-- Left operand, axis 2: the contracted position. -/
theorem lhs_2 (i : S2048x40x64.Idx) (q : dot_S2048x40x64_S64x64_S2048x40x64_2_0_01_1_n_n.contr.Idx) :
    (dot_S2048x40x64_S64x64_S2048x40x64_2_0_01_1_n_n.lhsIdx i q 2).val = (q ⟨0, by decide⟩).val :=
  dot_S2048x40x64_S64x64_S2048x40x64_2_0_01_1_n_n.lhsIdx_val_of_single rfl i q

/-- Right operand, axis 0: the contracted position. -/
theorem rhs_0 (i : S2048x40x64.Idx) (q : dot_S2048x40x64_S64x64_S2048x40x64_2_0_01_1_n_n.contr.Idx) :
    (dot_S2048x40x64_S64x64_S2048x40x64_2_0_01_1_n_n.rhsIdx i q 0).val = (q ⟨0, by decide⟩).val :=
  dot_S2048x40x64_S64x64_S2048x40x64_2_0_01_1_n_n.rhsIdx_val_of_single rfl i q

/-- Right operand, axis 1: the result's lane. -/
theorem rhs_1 (i : S2048x40x64.Idx) (q : dot_S2048x40x64_S64x64_S2048x40x64_2_0_01_1_n_n.contr.Idx) :
    (dot_S2048x40x64_S64x64_S2048x40x64_2_0_01_1_n_n.rhsIdx i q 1).val = (i 2).val := by
  unfold DotDims.rhsIdx
  rw [dif_neg (show ¬(1 : Fin S64x64.rank) ∈ dot_S2048x40x64_S64x64_S2048x40x64_2_0_01_1_n_n.rhsBatch by decide),
    dif_pos (show (1 : Fin S64x64.rank) ∈ dot_S2048x40x64_S64x64_S2048x40x64_2_0_01_1_n_n.rhsNonContracting by decide)]
  rfl

/-- Over the extended reals the contraction at `(b, f, e)` is `∑ k, x[b, f, k] · w[k, e]`. -/
theorem dot_apply (x : FVec Ideal S2048x40x64 .f32) (w : FVec Ideal S64x64 .f32) (b : Fin 2048) (f : Fin 40) (e : Fin 64) :
    Host.dotGeneral (F := Ideal) dot_S2048x40x64_S64x64_S2048x40x64_2_0_01_1_n_n none x w (ix3 b f e)
      = ∑ k : Fin 64, x (ix3 b f k) * w (ix2 k e) := by
  simp only [Host.dotGeneral]
  rw [Ideal.dotGeneral_apply,
    ← Equiv.sum_comp (contrEquiv1 dot_S2048x40x64_S64x64_S2048x40x64_2_0_01_1_n_n 64 rfl rfl).symm]
  refine Finset.sum_congr rfl fun k _ => ?_
  have hk := contrEquiv1_symm_val dot_S2048x40x64_S64x64_S2048x40x64_2_0_01_1_n_n 64 rfl rfl k
  have el : dot_S2048x40x64_S64x64_S2048x40x64_2_0_01_1_n_n.lhsIdx (ix3 b f e)
      ((contrEquiv1 dot_S2048x40x64_S64x64_S2048x40x64_2_0_01_1_n_n 64 rfl rfl).symm k) = ix3 b f k :=
    funext fun a => Fin.ext (by
      match a with
      | ⟨0, _⟩ => exact lhs_0 _ _
      | ⟨1, _⟩ => exact lhs_1 _ _
      | ⟨2, _⟩ => exact (lhs_2 _ _).trans hk)
  have er : dot_S2048x40x64_S64x64_S2048x40x64_2_0_01_1_n_n.rhsIdx (ix3 b f e)
      ((contrEquiv1 dot_S2048x40x64_S64x64_S2048x40x64_2_0_01_1_n_n 64 rfl rfl).symm k) = ix2 k e :=
    funext fun a => Fin.ext (by
      match a with
      | ⟨0, _⟩ => exact (rhs_0 _ _).trans hk
      | ⟨1, _⟩ => exact rhs_1 _ _)
  rw [el, er]

end Dot

/-! ## The start indices, and the whole term -/

/-- The start index of row `p`: the table's word `p`, wrapped if negative. -/
theorem startIdx_apply (tbl : Fin 780 → BitVec 32) (p : Fin 780) :
    startIdx tbl (ix2 p (0 : Fin 1))
      = Scalar.select (IntOp.cmpi .slt (tbl p) 0#32) (IntOp.addi (tbl p) 40#32) (tbl p) := by
  unfold startIdx
  rw [broadcastInDim_apply _ _ _ _ (ix1 p) (fun a => by
    obtain rfl : a = 0 := Subsingleton.elim _ _
    rfl)]
  have hp : S780.rowMajor (ix1 p) = p := Fin.ext (Shape.rowMajor_val_one _)
  show Scalar.select (IntOp.cmpi .slt (tbl (S780.rowMajor (ix1 p))) 0#32) (IntOp.addi (tbl (S780.rowMajor (ix1 p))) 40#32)
      (tbl (S780.rowMajor (ix1 p))) = _
  rw [hp]

/-- The field a gather reads for row `p` of its start indices is `fieldOf` of the table's word `p`. -/
theorem startIdx_field (tbl : Fin 780 → BitVec 32) (p : Fin 780) :
    min (startIdx tbl (ix2 p (0 : Fin 1))).toInt.toNat 39 = fieldOf (tbl p) := by
  rw [startIdx_apply]; rfl

/-- The composed term at row `b`, pair `q`, lane `e`: the two gathers read fields `pairI q` and `pairJ q`, the first
    from the contraction and the second from `x` itself. -/
theorem refTerm_at (x : Vec Ideal S2048x40x64 .f32) (w : Vec Ideal S64x64 .f32) (b : Fin 2048) (q : Fin 780) (e : Fin 64)
    (c : Fin 49920) (hc : c.val = q.val * 64 + e.val) :
    refTerm (F := Ideal) x w (ix2 b c)
      = (∑ k : Fin 64, x (ix3 b (Cert.Spec.pairI q) k) * w (ix2 k e)) * x (ix3 b (Cert.Spec.pairJ q) e) := by
  have hI : (⟨min (startIdx lit0 (ix2 q (0 : Fin 1))).toInt.toNat 39, by omega⟩ : Fin 40) = Cert.Spec.pairI q :=
    Fin.ext (show min (startIdx lit0 (ix2 q (0 : Fin 1))).toInt.toNat 39 = Cert.Spec.pairIn q.val from
      (startIdx_field lit0 q).trans (fieldOf_lit0 q))
  have hJ : (⟨min (startIdx lit1 (ix2 q (0 : Fin 1))).toInt.toNat 39, by omega⟩ : Fin 40) = Cert.Spec.pairJ q :=
    Fin.ext (show min (startIdx lit1 (ix2 q (0 : Fin 1))).toInt.toNat 39 = Cert.Spec.pairJn q.val from
      (startIdx_field lit1 q).trans (fieldOf_lit1 q))
  unfold refTerm
  rw [shapeCast_mergeTail_apply _ _ (by norm_num) b q e c hc, mulf_apply, gather_apply, gather_apply, dot_apply, hI, hJ]

/-- The composed term is the specification's array, index by index: column `c` of row `b` is lane `c % 64` of pair
    `c / 64`. -/
theorem refTerm_eq (x : Vec Ideal S2048x40x64 .f32) (w : Vec Ideal S64x64 .f32) :
    refTerm (F := Ideal) x w = Cert.Spec.G x w := by
  funext y
  obtain ⟨b, c, rfl⟩ : ∃ (b : Fin 2048) (c : Fin 49920), y = ix2 b c := ⟨y 0, y 1, eq_ix2 y⟩
  rw [Cert.Spec.G_ix2']
  exact refTerm_at x w b ⟨c.val / 64, by omega⟩ ⟨c.val % 64, Nat.mod_lt _ (by norm_num)⟩ c (Nat.div_add_mod' c.val 64).symm

/-- Every weakly fair execution of the reference terminates with the result buffer at the specification's array of the
    two arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1).trans (refTerm_eq _ _), (h c).2.1, (h c).2.2⟩) (run_term m ρ)

end Cert.RefValue

end
-- ==== Proof.lean ====
/-
  Pairwise bilinear interaction of 40 field embeddings: the kernel against its jnp reference, over the extended reals.

  For `x : [2048, 40, 64]` and `w : [64, 64]` put `xw[b, f, e] = ∑ k, x[b, f, k] * w[k, e]`.  Both programs
  compute, for each of the 780 unordered pairs of fields `i < j` (numbered `p` row by row of the strict upper
  triangle), the lane-wise product `xw[b, i, e] * x[b, j, e]`, laid out as `out[b, 64 * p + e]`
  (`Cert.Spec.G`, Proof/Spec.lean).

  The kernel works on blocks of 32 batch rows: one matrix product of the block (as `[1280, 64]`) with `w`, then
  one chunk of the output block per field `i`, holding the products with all the fields `j > i` at once
  (Proof/KerMatmul.lean, KerChunk.lean, KerPieces.lean); the 64 blocks tile the result (Proof/KerValue.lean).
  The reference contracts the whole array with `w`, gathers the rows `i_p` and `j_p` by two constant index
  tables, multiplies and flattens (Proof/RefValue.lean).  At the extended reals a change of float format is the
  identity and the two matrix products are the same finite sum, so both results are `G x w`; no algebraic law
  beyond that is needed, and the finiteness of the inputs is not used.

  The idealized kernel is the kernel's own text read over the extended reals (no rewrite), so `preserves` is
  `True`.  The three frames: the two kernels' are the generated frame certificates, the reference's is its run
  with the result dropped.
-/
import proofs.«402416_j19679540150798_3_alg».proof.Defs
import proofs.«402416_j19679540150798_3_alg».proof.Proof.Gen.Kernel
import proofs.«402416_j19679540150798_3_alg».proof.Proof.Gen.Kernel.Frame
import proofs.«402416_j19679540150798_3_alg».proof.Proof.Gen.KernelIdeal
import proofs.«402416_j19679540150798_3_alg».proof.Proof.Gen.KernelIdeal.Frame
import proofs.«402416_j19679540150798_3_alg».proof.Proof.Gen.ReferenceIdeal
import proofs.«402416_j19679540150798_3_alg».proof.Proof.Gen.Pre_finite_inputs
import proofs.«402416_j19679540150798_3_alg».proof.Proof.KerValue
import proofs.«402416_j19679540150798_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefValue.run m ρ)

/-- Both idealized programs end with the result `G x w` of their (agreeing) arguments. -/
theorem algebraic : Cert.algebraic_KernelIdeal_ReferenceIdeal := by
  intro m ρ m' ρ' _ hagree
  refine ⟨_, Cert.KerValue.run m ρ, ?_⟩
  refine (θ_run Cert.ReferenceIdeal.defs _ _).mono (fun _ h c => ⟨(h c).1.trans ?_, (h c).2⟩)
    (Cert.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
